-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x16 : Shape := ⟨2, ![262144, 16]⟩
abbrev S16x144 : Shape := ⟨2, ![16, 144]⟩
abbrev S16 : Shape := ⟨1, ![16]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x16 : S_.BroadcastsInDim S262144x16 (![] : Fin 0 → Fin S262144x16.rank)
  reducesTo_S262144x16_S_d0_1 : S262144x16.ReducesTo [0, 1] S_
  bcast_S_S16x144 : S_.BroadcastsInDim S16x144 (![] : Fin 0 → Fin S16x144.rank)
  reducesTo_S16x144_S_d0_1 : S16x144.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S16x144 .f32) (main_arg8 : FVec F S16 .f32) (main_arg9 : FVec F S16x144 .f32) (main_arg10 : FVec F S16 .f32) (main_v33 : IVec S_ 1) : IVec S_ 1 :=
  let main_v34 : FVec F S16x144 .f32 := Host.absf main_arg7
  let main_cst_12 : FVec F S_ .f32 := constant S_ .f32 0x7F800000#32
  let main_v35 : FVec F S16x144 .f32 := broadcastInDim S16x144 ![] bcast_S_S16x144 main_cst_12
  let main_v36 : IVec S16x144 1 := cmpf .olt main_v34 main_v35
  let main_c_13 : IVec S_ 1 := constantI S_ 1 1#1
  let main_v37 : IVec S_ 1 := (fun x v => Host.reduce IntOp.andi x v reducesTo_S16x144_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x144 .f32 := Host.absf main_arg9
  let main_cst_16 : FVec F S_ .f32 := constant S_ .f32 0x7F800000#32
  let main_v45 : FVec F S16x144 .f32 := broadcastInDim S16x144 ![] bcast_S_S16x144 main_cst_16
  let main_v46 : IVec S16x144 1 := cmpf .olt main_v44 main_v45
  let main_c_17 : IVec S_ 1 := constantI S_ 1 1#1
  let main_v47 : IVec S_ 1 := (fun x v => Host.reduce IntOp.andi x v reducesTo_S16x144_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S16 .f32) (main_arg5 : FVec F S16x144 .f32) (main_arg6 : FVec F S16 .f32) (main_arg7 : FVec F S16x144 .f32) (main_arg8 : FVec F S16 .f32) (main_arg9 : FVec F S16x144 .f32) (main_arg10 : FVec F S16 .f32) (main_v13 : IVec S_ 1) (main_v16 : IVec S16x144 1) : IVec S_ 1 :=
  let main_c_5 : IVec S_ 1 := constantI S_ 1 1#1
  let main_v17 : IVec S_ 1 := (fun x v => Host.reduce IntOp.andi x v reducesTo_S16x144_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x144 .f32 := Host.absf main_arg5
  let main_cst_8 : FVec F S_ .f32 := constant S_ .f32 0x7F800000#32
  let main_v25 : FVec F S16x144 .f32 := broadcastInDim S16x144 ![] bcast_S_S16x144 main_cst_8
  let main_v26 : IVec S16x144 1 := cmpf .olt main_v24 main_v25
  let main_c_9 : IVec S_ 1 := constantI S_ 1 1#1
  let main_v27 : IVec S_ 1 := (fun x v => Host.reduce IntOp.andi x v reducesTo_S16x144_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S262144x128 .f32) (main_arg1 : FVec F S262144x16 .f32) (main_arg2 : FVec F S262144x16 .f32) (main_arg3 : FVec F S16x144 .f32) (main_arg4 : FVec F S16 .f32) (main_arg5 : FVec F S16x144 .f32) (main_arg6 : FVec F S16 .f32) (main_arg7 : FVec F S16x144 .f32) (main_arg8 : FVec F S16 .f32) (main_arg9 : FVec F S16x144 .f32) (main_arg10 : FVec F S16 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x16 .f32 := Host.absf main_arg1
  let main_cst_0 : FVec F S_ .f32 := constant S_ .f32 0x7F800000#32
  let main_v5 : FVec F S262144x16 .f32 := broadcastInDim S262144x16 ![] bcast_S_S262144x16 main_cst_0
  let main_v6 : IVec S262144x16 1 := cmpf .olt main_v4 main_v5
  let main_c_1 : IVec S_ 1 := constantI S_ 1 1#1
  let main_v7 : IVec S_ 1 := (fun x v => Host.reduce IntOp.andi x v reducesTo_S262144x16_S_d0_1 h_S_) main_v6 main_c_1
  let main_v8 : IVec S_ 1 := andi main_v3 main_v7
  let main_v9 : FVec F S262144x16 .f32 := Host.absf main_arg2
  let main_cst_2 : FVec F S_ .f32 := constant S_ .f32 0x7F800000#32
  let main_v10 : FVec F S262144x16 .f32 := broadcastInDim S262144x16 ![] bcast_S_S262144x16 main_cst_2
  let main_v11 : IVec S262144x16 1 := cmpf .olt main_v9 main_v10
  let main_c_3 : IVec S_ 1 := constantI S_ 1 1#1
  let main_v12 : IVec S_ 1 := (fun x v => Host.reduce IntOp.andi x v reducesTo_S262144x16_S_d0_1 h_S_) main_v11 main_c_3
  let main_v13 : IVec S_ 1 := andi main_v8 main_v12
  let main_v14 : FVec F S16x144 .f32 := Host.absf main_arg3
  let main_cst_4 : FVec F S_ .f32 := constant S_ .f32 0x7F800000#32
  let main_v15 : FVec F S16x144 .f32 := broadcastInDim S16x144 ![] bcast_S_S16x144 main_cst_4
  let main_v16 : IVec S16x144 1 := cmpf .olt main_v14 main_v15
  fn_part1 (F := F) main_arg4 main_arg5 main_arg6 main_arg7 main_arg8 main_arg9 main_arg10 main_v13 main_v16
-- ==== Kernel.lean ====
abbrev S262144x128 : Shape := ⟨2, ![262144, 128]⟩
abbrev S262144x16 : Shape := ⟨2, ![262144, 16]⟩
abbrev S16x144 : Shape := ⟨2, ![16, 144]⟩
abbrev S16 : Shape := ⟨1, ![16]⟩
abbrev S16x128 : Shape := ⟨2, ![16, 128]⟩
abbrev S128x16 : Shape := ⟨2, ![128, 16]⟩
abbrev S128x64 : Shape := ⟨2, ![128, 64]⟩
abbrev S16x16 : Shape := ⟨2, ![16, 16]⟩
abbrev S16x64 : Shape := ⟨2, ![16, 64]⟩
abbrev S64 : Shape := ⟨1, ![64]⟩
abbrev S4096x128 : Shape := ⟨2, ![4096, 128]⟩
abbrev S4096x16 : Shape := ⟨2, ![4096, 16]⟩
abbrev S4096x64 : Shape := ⟨2, ![4096, 64]⟩
abbrev S1x64 : Shape := ⟨2, ![1, 64]⟩

abbrev nBuf : Space → Nat
  | .hbm => 34
  | .vmem => 13
  | .smem => 0
  | _ => 0

abbrev bufTy : (tb : Table) → Fin (tcTables nBuf tb) → BufTy
  | .hbm, ⟨0, _⟩ => ⟨S262144x128, .f32⟩
  | .hbm, ⟨1, _⟩ => ⟨S262144x16, .f32⟩
  | .hbm, ⟨2, _⟩ => ⟨S262144x16, .f32⟩
  | .hbm, ⟨3, _⟩ => ⟨S16x144, .f32⟩
  | .hbm, ⟨4, _⟩ => ⟨S16, .f32⟩
  | .hbm, ⟨5, _⟩ => ⟨S16x144, .f32⟩
  | .hbm, ⟨6, _⟩ => ⟨S16, .f32⟩
  | .hbm, ⟨7, _⟩ => ⟨S16x144, .f32⟩
  | .hbm, ⟨8, _⟩ => ⟨S16, .f32⟩
  | .hbm, ⟨9, _⟩ => ⟨S16x144, .f32⟩
  | .hbm, ⟨10, _⟩ => ⟨S16, .f32⟩
  | .hbm, ⟨11, _⟩ => ⟨S16x128, .f32⟩
  | .hbm, ⟨12, _⟩ => ⟨S128x16, .f32⟩
  | .hbm, ⟨13, _⟩ => ⟨S16x128, .f32⟩
  | .hbm, ⟨14, _⟩ => ⟨S128x16, .f32⟩
  | .hbm, ⟨15, _⟩ => ⟨S16x128, .f32⟩
  | .hbm, ⟨16, _⟩ => ⟨S128x16, .f32⟩
  | .hbm, ⟨17, _⟩ => ⟨S16x128, .f32⟩
  | .hbm, ⟨18, _⟩ => ⟨S128x16, .f32⟩
  | .hbm, ⟨19, _⟩ => ⟨S128x64, .f32⟩
  | .hbm, ⟨20, _⟩ => ⟨S128x64, .bf16⟩
  | .hbm, ⟨21, _⟩ => ⟨S16x16, .f32⟩
  | .hbm, ⟨22, _⟩ => ⟨S16x16, .f32⟩
  | .hbm, ⟨23, _⟩ => ⟨S16x16, .f32⟩
  | .hbm, ⟨24, _⟩ => ⟨S16x16, .f32⟩
  | .hbm, ⟨25, _⟩ => ⟨S16x16, .f32⟩
  | .hbm, ⟨26, _⟩ => ⟨S16x16, .f32⟩
  | .hbm, ⟨27, _⟩ => ⟨S16x16, .f32⟩
  | .hbm, ⟨28, _⟩ => ⟨S16x16, .f32⟩
  | .hbm, ⟨29, _⟩ => ⟨S16x64, .f32⟩
  | .hbm, ⟨30, _⟩ => ⟨S16x64, .bf16⟩
  | .hbm, ⟨31, _⟩ => ⟨S64, .f32⟩
  | .hbm, ⟨32, _⟩ => ⟨S262144x16, .f32⟩
  | .hbm, ⟨33, _⟩ => ⟨S262144x16, .f32⟩
  | .local _ .vmem, ⟨0, _⟩ => ⟨S4096x128, .f32⟩
  | .local _ .vmem, ⟨1, _⟩ => ⟨S4096x128, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S128x64, .bf16⟩
  | .local _ .vmem, ⟨7, _⟩ => ⟨S16x64, .bf16⟩
  | .local _ .vmem, ⟨8, _⟩ => ⟨S64, .f32⟩
  | .local _ .vmem, ⟨9, _⟩ => ⟨S4096x16, .f32⟩
  | .local _ .vmem, ⟨10, _⟩ => ⟨S4096x16, .f32⟩
  | .local _ .vmem, ⟨11, _⟩ => ⟨S4096x16, .f32⟩
  | .local _ .vmem, ⟨12, _⟩ => ⟨S4096x16, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S16x144_S16x128_0_0 : S16x144.Slices ![0, 0] S16x128
  transposes_S16x128_S128x16_1_0 : S16x128.Transposes [1, 0] S128x16
  concatenates_S128x16_S128x16_S128x16_S128x16_S128x64_d1 : Shape.Concatenates [S128x16, S128x16, S128x16, S128x16] S128x64 1
  bitsLt_bf16_f32 : FTy.bits .bf16 < FTy.bits .f32
  slices_S16x144_S16x16_0_128 : S16x144.Slices ![0, 128] S16x16
  transposes_S16x16_S16x16_1_0 : S16x16.Transposes [1, 0] S16x16
  concatenates_S16x16_S16x16_S16x16_S16x16_S16x64_d1 : Shape.Concatenates [S16x16, S16x16, S16x16, S16x16] S16x64 1
  concatenates_S16_S16_S16_S16_S64_d0 : Shape.Concatenates [S16, S16, S16, S16] S64 0
  inb_S4096x128_S4096x128_0_0 : ∀ a, (![0, 0] : Fin 2 → Nat) a + S4096x128.size a ≤ S4096x128.size a
  h_S4096x128 : 0 < S4096x128.numel
  inb_S4096x16_S4096x16_0_0 : ∀ a, (![0, 0] : Fin 2 → Nat) a + S4096x16.size a ≤ S4096x16.size a
  h_S4096x16 : 0 < S4096x16.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S4096x64 : S1x64.Broadcasts S4096x64
  slices_S4096x64_o0_0_S4096x16 : S4096x64.Slices ![0, 0] S4096x16
  slices_S4096x64_o0_16_S4096x16 : S4096x64.Slices ![0, 16] S4096x16
  slices_S4096x64_o0_32_S4096x16 : S4096x64.Slices ![0, 32] S4096x16
  slices_S4096x64_o0_48_S4096x16 : S4096x64.Slices ![0, 48] S4096x16
  dot_S4096x128_S128x64_S4096x64_1_0_0_1_n_n_wf : DotDims.WF S4096x128 S128x64 S4096x64 [1] [0] [0] [1] [] []
  dot_S4096x16_S16x64_S4096x64_1_0_0_1_n_n_wf : DotDims.WF S4096x16 S16x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S262144x16.size a
  hwx0_1 : ∀ i : grid0.Coords, EltTy.bits .f32 = 32 ∨ (Rect.block (s := S262144x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S262144x16.size a
  hwx0_2 : ∀ i : grid0.Coords, EltTy.bits .f32 = 32 ∨ (Rect.block (s := S262144x16) S4096x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .bf16 = 32 ∨ (Rect.block (s := S16x64) S16x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x16.size a ≤ S262144x16.size a
  hwx0_6 : ∀ i : grid0.Coords, EltTy.bits .f32 = 32 ∨ (Rect.block (s := S262144x16) S4096x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x16.size a ≤ S262144x16.size a
  hwx0_7 : ∀ i : grid0.Coords, EltTy.bits .f32 = 32 ∨ (Rect.block (s := S262144x16) S4096x16.size (cc0_transform_7 i) (hinb0_7 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S4096x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S4096x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x16 : Shape := ⟨2, ![262144, 16]⟩
abbrev S16x144 : Shape := ⟨2, ![16, 144]⟩
abbrev S16 : Shape := ⟨1, ![16]⟩
abbrev S262144x144 : Shape := ⟨2, ![262144, 144]⟩
abbrev S144x16 : Shape := ⟨2, ![144, 16]⟩
abbrev S1x16 : Shape := ⟨2, ![1, 16]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x16, .f32⟩
  | .hbm, ⟨2, _⟩ => ⟨S262144x16, .f32⟩
  | .hbm, ⟨3, _⟩ => ⟨S16x144, .f32⟩
  | .hbm, ⟨4, _⟩ => ⟨S16, .f32⟩
  | .hbm, ⟨5, _⟩ => ⟨S16x144, .f32⟩
  | .hbm, ⟨6, _⟩ => ⟨S16, .f32⟩
  | .hbm, ⟨7, _⟩ => ⟨S16x144, .f32⟩
  | .hbm, ⟨8, _⟩ => ⟨S16, .f32⟩
  | .hbm, ⟨9, _⟩ => ⟨S16x144, .f32⟩
  | .hbm, ⟨10, _⟩ => ⟨S16, .f32⟩
  | .hbm, ⟨11, _⟩ => ⟨S262144x144, .f32⟩
  | .hbm, ⟨12, _⟩ => ⟨S144x16, .f32⟩
  | .hbm, ⟨13, _⟩ => ⟨S262144x16, .f32⟩
  | .hbm, ⟨14, _⟩ => ⟨S1x16, .f32⟩
  | .hbm, ⟨15, _⟩ => ⟨S262144x16, .f32⟩
  | .hbm, ⟨16, _⟩ => ⟨S262144x16, .f32⟩
  | .hbm, ⟨17, _⟩ => ⟨S262144x16, .f32⟩
  | .hbm, ⟨18, _⟩ => ⟨S262144x16, .f32⟩
  | .hbm, ⟨19, _⟩ => ⟨S_, .f32⟩
  | .hbm, ⟨20, _⟩ => ⟨S262144x16, .f32⟩
  | .hbm, ⟨21, _⟩ => ⟨S262144x16, .f32⟩
  | .hbm, ⟨22, _⟩ => ⟨S_, .f32⟩
  | .hbm, ⟨23, _⟩ => ⟨S262144x16, .f32⟩
  | .hbm, ⟨24, _⟩ => ⟨S262144x16, .f32⟩
  | .hbm, ⟨25, _⟩ => ⟨S144x16, .f32⟩
  | .hbm, ⟨26, _⟩ => ⟨S262144x16, .f32⟩
  | .hbm, ⟨27, _⟩ => ⟨S1x16, .f32⟩
  | .hbm, ⟨28, _⟩ => ⟨S262144x16, .f32⟩
  | .hbm, ⟨29, _⟩ => ⟨S262144x16, .f32⟩
  | .hbm, ⟨30, _⟩ => ⟨S262144x16, .f32⟩
  | .hbm, ⟨31, _⟩ => ⟨S262144x16, .f32⟩
  | .hbm, ⟨32, _⟩ => ⟨S_, .f32⟩
  | .hbm, ⟨33, _⟩ => ⟨S262144x16, .f32⟩
  | .hbm, ⟨34, _⟩ => ⟨S262144x16, .f32⟩
  | .hbm, ⟨35, _⟩ => ⟨S_, .f32⟩
  | .hbm, ⟨36, _⟩ => ⟨S262144x16, .f32⟩
  | .hbm, ⟨37, _⟩ => ⟨S262144x16, .f32⟩
  | .hbm, ⟨38, _⟩ => ⟨S144x16, .f32⟩
  | .hbm, ⟨39, _⟩ => ⟨S262144x16, .f32⟩
  | .hbm, ⟨40, _⟩ => ⟨S1x16, .f32⟩
  | .hbm, ⟨41, _⟩ => ⟨S262144x16, .f32⟩
  | .hbm, ⟨42, _⟩ => ⟨S262144x16, .f32⟩
  | .hbm, ⟨43, _⟩ => ⟨S262144x16, .f32⟩
  | .hbm, ⟨44, _⟩ => ⟨S262144x16, .f32⟩
  | .hbm, ⟨45, _⟩ => ⟨S262144x16, .f32⟩
  | .hbm, ⟨46, _⟩ => ⟨S262144x16, .f32⟩
  | .hbm, ⟨47, _⟩ => ⟨S144x16, .f32⟩
  | .hbm, ⟨48, _⟩ => ⟨S262144x16, .f32⟩
  | .hbm, ⟨49, _⟩ => ⟨S1x16, .f32⟩
  | .hbm, ⟨50, _⟩ => ⟨S262144x16, .f32⟩
  | .hbm, ⟨51, _⟩ => ⟨S262144x16, .f32⟩
  | .hbm, ⟨52, _⟩ => ⟨S262144x16, .f32⟩
  | .hbm, ⟨53, _⟩ => ⟨S262144x16, .f32⟩
  | .hbm, ⟨54, _⟩ => ⟨S_, .f32⟩
  | .hbm, ⟨55, _⟩ => ⟨S262144x16, .f32⟩
  | .hbm, ⟨56, _⟩ => ⟨S262144x16, .f32⟩
  | .hbm, ⟨57, _⟩ => ⟨S_, .f32⟩
  | .hbm, ⟨58, _⟩ => ⟨S262144x16, .f32⟩
  | .hbm, ⟨59, _⟩ => ⟨S262144x16, .f32⟩
  | .hbm, ⟨60, _⟩ => ⟨S262144x16, .f32⟩
  | .hbm, ⟨61, _⟩ => ⟨S262144x16, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  concatenates_S262144x128_S262144x16_S262144x144_d1 : Shape.Concatenates [S262144x128, S262144x16] S262144x144 1
  transposes_S16x144_S144x16_1_0 : S16x144.Transposes [1, 0] S144x16
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x16 : S_.BroadcastsInDim S262144x16 (![] : Fin 0 → Fin S262144x16.rank)
  dot_S262144x144_S144x16_S262144x16_1_0_0_1_n_n_wf : DotDims.WF S262144x144 S144x16 S262144x16 [1] [0] [0] [1] [] []

variable [Facts₀]

def dot_S262144x144_S144x16_S262144x16_1_0_0_1_n_n : DotDims S262144x144 S144x16 S262144x16 where
  lhsContracting := [1]
  rhsContracting := [0]
  lhsNonContracting := [0]
  rhsNonContracting := [1]
  lhsBatch := []
  rhsBatch := []
  wf := dot_S262144x144_S144x16_S262144x16_1_0_0_1_n_n_wf

class Facts : Prop extends Facts₀ where

variable [Facts]
-- ==== Proof.CellFrameWord.lean ====
import proofs.«407122_j63848983822341_3_alg».proof.Proof.Gen.Kernel.Launch
import proofs.«407122_j63848983822341_3_alg».proof.Proof.Gen.Kernel.Skeleton
import proofs.«407122_j63848983822341_3_alg».proof.Proof.Gen.Kernel.Points
import Idealize.ShloMosaic.Lib.Pipeline.FrameBody
import Idealize.ShloMosaic.Lib.Ring
import Idealize.ShloMosaic.Lib.Tactic

/-!
# The LSTM cell's launch runs to the end and leaves its arguments alone

The program stacks the four gates' weights into one 128×64 table, one 16×64 table and one bias row of 64, then
launches one body over 64 batch tiles of 4096 rows. A tile's body loads its rows of `x`, `h`, `c`, the three
tables whole, and stores two 4096×16 tiles: the new hidden state and the new cell state. Every store covers its
whole tile, so what a tile leaves behind is a function of the loaded blocks alone (`newHidden`, `newCell` below:
one covering piece each). Nothing the launch writes is an argument, and the tables are written by the host
operations before the launch into buffers of their own, so each argument ends as it began.
-/

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s buffers hold when the launch begins: the entry contents after the weight-stacking operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the stacking operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No operation before the launch writes argument 0: the launch finds it as it was at entry. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 1: the launch finds it as it was at entry. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 2: the launch finds it as it was at entry. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 3: the launch finds it as it was at entry. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 4: the launch finds it as it was at entry. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 5: the launch finds it as it was at entry. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 6: the launch finds it as it was at entry. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 7: the launch finds it as it was at entry. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 8: the launch finds it as it was at entry. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 9: the launch finds it as it was at entry. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 10: the launch finds it as it was at entry. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## A tile's blocks -/

/-- Operand `w`'s block for tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's rectangles: each access is a whole tile -/

abbrev rX : Rect S4096x128 := Rect.unit (s := S4096x128) ![0, 0] S4096x128.size inb_S4096x128_S4096x128_0_0
abbrev rH : Rect S4096x16 := Rect.unit (s := S4096x16) ![0, 0] S4096x16.size inb_S4096x16_S4096x16_0_0
abbrev rWx : Rect S128x64 := Rect.unit (s := S128x64) ![0, 0] S128x64.size inb_S128x64_S128x64_0_0
abbrev rWh : Rect S16x64 := Rect.unit (s := S16x64) ![0, 0] S16x64.size inb_S16x64_S16x64_0_0
abbrev rB : Rect S64 := Rect.unit (s := S64) ![0] S64.size inb_S64_S64_0

/-! ## What a tile's body leaves in its two output tiles -/

/-- The new hidden state of a tile, from the tile's blocks: `o · tanh C'`, one store over the whole tile. -/
def newHidden (x0 : Vec F S4096x128 .f32) (x1 : Vec F S4096x16 .f32) (x2 : Vec F S4096x16 .f32) (x3 : Vec F S128x64 .bf16) (x4 : Vec F S16x64 .bf16) (x5 : Vec F S64 .f32) : Vec F S4096x16 .f32 :=
  View.canon [⟨rH, k0_pay3 (View.ld x0 rX) (View.ld x1 rH) (View.ld x2 rH) (View.ld x3 rWx) (View.ld x4 rWh) (View.ld x5 rB)⟩]

/-- The new cell state of a tile: `f · c + i · g`, one store over the whole tile. -/
def newCell (x0 : Vec F S4096x128 .f32) (x1 : Vec F S4096x16 .f32) (x2 : Vec F S4096x16 .f32) (x3 : Vec F S128x64 .bf16) (x4 : Vec F S16x64 .bf16) (x5 : Vec F S64 .f32) : Vec F S4096x16 .f32 :=
  View.canon [⟨rH, k0_pay2 (View.ld x0 rX) (View.ld x1 rH) (View.ld x2 rH) (View.ld x3 rWx) (View.ld x4 rWh) (View.ld x5 rB)⟩]

/-- One whole-tile store covers the tile. -/
theorem cover_tile (p0 : Vec F S4096x16 .f32) (y : S4096x16.Idx) :
    ∃ pc ∈ ([⟨rH, p0⟩] : List (View.Piece (Elt F) S4096x16 .f32)), y ∈ pc.1.set :=
  View.cover_of_tiled [⟨rH, p0⟩] S4096x16.size (by rfl) y

/-! ## The body's triple -/

set_option maxHeartbeats 4000000 in
/-- The body on whole staging buffers — the six inputs at known contents, the two outputs at anything — runs to the
    end, leaving the inputs as they were and the outputs at `newHidden` and `newCell` of the inputs. -/
theorem sound_kernel (c : Dev nD) (E : Set ℕ) (i : grid0.Coords)
    (arg1 : Memref sig .tc .vmem S4096x128 .f32) (harg1 : arg1.IsWhole) (arg2 : Memref sig .tc .vmem S4096x16 .f32) (harg2 : arg2.IsWhole)
    (arg3 : Memref sig .tc .vmem S4096x16 .f32) (harg3 : arg3.IsWhole) (arg4 : Memref sig .tc .vmem S128x64 .bf16) (harg4 : arg4.IsWhole)
    (arg5 : Memref sig .tc .vmem S16x64 .bf16) (harg5 : arg5.IsWhole) (arg6 : Memref sig .tc .vmem S64 .f32) (harg6 : arg6.IsWhole)
    (arg7 : Memref sig .tc .vmem S4096x16 .f32) (harg7 : arg7.IsWhole) (arg8 : Memref sig .tc .vmem S4096x16 .f32) (harg8 : arg8.IsWhole)
    (x0 : Vec F S4096x128 .f32) (x1 : Vec F S4096x16 .f32) (x2 : Vec F S4096x16 .f32) (x3 : Vec F S128x64 .bf16) (x4 : Vec F S16x64 .bf16) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newHidden x0 x1 x2 x3 x4 x5) ∗ owns (c : Thread nD τ) arg8 fullShare (newCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

end Cert.Kernel.CellFrame

end
-- ==== Proof.CellRunWord.lean ====
import proofs.«407122_j63848983822341_3_alg».proof.Proof.CellFrameWord

/-!
# The launch's proof data, the body at every tile, and the run

Per tile the six input buffers hold the tile's blocks (the three batch operands fetched afresh, the three weight
tables fetched once and kept), and the body leaves the two output buffers at the new hidden and cell states of those
blocks. The launch theorem of the pipeline library then gives the whole run, and from it the arguments' contents at the end.
-/

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after tile `t`'s body each input buffer at its block and the two
    output buffers at the new hidden and cell states of the tile's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newHidden (iblk m c 0 t) (iblk m c 1 t) (iblk m c 2 t) (iblk m c 3 t) (iblk m c 4 t) (iblk m c 5 t)
    | ⟨7, _⟩ => newCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_hidden (c : Dev nD) (t : Fin cfg0.N) : (dats m 0 c).after 6 t = newHidden (iblk m c 0 t) (iblk m c 1 t) (iblk m c 2 t) (iblk m c 3 t) (iblk m c 4 t) (iblk m c 5 t) := by dsimp only [dats]
theorem after_cell (c : Dev nD) (t : Fin cfg0.N) : (dats m 0 c).after 7 t = newCell (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body at a tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with the launch's arrays at what the proof data
    says and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its eleven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.CellFrame

end
-- ==== Proof.CellFrameIdeal.lean ====
import proofs.«407122_j63848983822341_3_alg».proof.Proof.Gen.KernelIdeal.Launch
import proofs.«407122_j63848983822341_3_alg».proof.Proof.Gen.KernelIdeal.Skeleton
import proofs.«407122_j63848983822341_3_alg».proof.Proof.Gen.KernelIdeal.Points
import Idealize.ShloMosaic.Lib.Pipeline.FrameBody
import Idealize.ShloMosaic.Lib.Ring
import Idealize.ShloMosaic.Lib.Tactic

/-!
# The LSTM cell's launch runs to the end and leaves its arguments alone

The program stacks the four gates' weights into one 128×64 table, one 16×64 table and one bias row of 64, then
launches one body over 64 batch tiles of 4096 rows. A tile's body loads its rows of `x`, `h`, `c`, the three
tables whole, and stores two 4096×16 tiles: the new hidden state and the new cell state. Every store covers its
whole tile, so what a tile leaves behind is a function of the loaded blocks alone (`newHidden`, `newCell` below:
one covering piece each). Nothing the launch writes is an argument, and the tables are written by the host
operations before the launch into buffers of their own, so each argument ends as it began.
-/

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s buffers hold when the launch begins: the entry contents after the weight-stacking operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the stacking operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No operation before the launch writes argument 0: the launch finds it as it was at entry. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 1: the launch finds it as it was at entry. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 2: the launch finds it as it was at entry. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 3: the launch finds it as it was at entry. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 4: the launch finds it as it was at entry. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 5: the launch finds it as it was at entry. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 6: the launch finds it as it was at entry. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 7: the launch finds it as it was at entry. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 8: the launch finds it as it was at entry. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 9: the launch finds it as it was at entry. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No operation before the launch writes argument 10: the launch finds it as it was at entry. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## A tile's blocks -/

/-- Operand `w`'s block for tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's rectangles: each access is a whole tile -/

abbrev rX : Rect S4096x128 := Rect.unit (s := S4096x128) ![0, 0] S4096x128.size inb_S4096x128_S4096x128_0_0
abbrev rH : Rect S4096x16 := Rect.unit (s := S4096x16) ![0, 0] S4096x16.size inb_S4096x16_S4096x16_0_0
abbrev rWx : Rect S128x64 := Rect.unit (s := S128x64) ![0, 0] S128x64.size inb_S128x64_S128x64_0_0
abbrev rWh : Rect S16x64 := Rect.unit (s := S16x64) ![0, 0] S16x64.size inb_S16x64_S16x64_0_0
abbrev rB : Rect S64 := Rect.unit (s := S64) ![0] S64.size inb_S64_S64_0

/-! ## What a tile's body leaves in its two output tiles -/

/-- The new hidden state of a tile, from the tile's blocks: `o · tanh C'`, one store over the whole tile. -/
def newHidden (x0 : Vec F S4096x128 .f32) (x1 : Vec F S4096x16 .f32) (x2 : Vec F S4096x16 .f32) (x3 : Vec F S128x64 .bf16) (x4 : Vec F S16x64 .bf16) (x5 : Vec F S64 .f32) : Vec F S4096x16 .f32 :=
  View.canon [⟨rH, k0_pay3 (View.ld x0 rX) (View.ld x1 rH) (View.ld x2 rH) (View.ld x3 rWx) (View.ld x4 rWh) (View.ld x5 rB)⟩]

/-- The new cell state of a tile: `f · c + i · g`, one store over the whole tile. -/
def newCell (x0 : Vec F S4096x128 .f32) (x1 : Vec F S4096x16 .f32) (x2 : Vec F S4096x16 .f32) (x3 : Vec F S128x64 .bf16) (x4 : Vec F S16x64 .bf16) (x5 : Vec F S64 .f32) : Vec F S4096x16 .f32 :=
  View.canon [⟨rH, k0_pay2 (View.ld x0 rX) (View.ld x1 rH) (View.ld x2 rH) (View.ld x3 rWx) (View.ld x4 rWh) (View.ld x5 rB)⟩]

/-- One whole-tile store covers the tile. -/
theorem cover_tile (p0 : Vec F S4096x16 .f32) (y : S4096x16.Idx) :
    ∃ pc ∈ ([⟨rH, p0⟩] : List (View.Piece (Elt F) S4096x16 .f32)), y ∈ pc.1.set :=
  View.cover_of_tiled [⟨rH, p0⟩] S4096x16.size (by rfl) y

/-! ## The body's triple -/

set_option maxHeartbeats 4000000 in
/-- The body on whole staging buffers — the six inputs at known contents, the two outputs at anything — runs to the
    end, leaving the inputs as they were and the outputs at `newHidden` and `newCell` of the inputs. -/
theorem sound_kernel (c : Dev nD) (E : Set ℕ) (i : grid0.Coords)
    (arg1 : Memref sig .tc .vmem S4096x128 .f32) (harg1 : arg1.IsWhole) (arg2 : Memref sig .tc .vmem S4096x16 .f32) (harg2 : arg2.IsWhole)
    (arg3 : Memref sig .tc .vmem S4096x16 .f32) (harg3 : arg3.IsWhole) (arg4 : Memref sig .tc .vmem S128x64 .bf16) (harg4 : arg4.IsWhole)
    (arg5 : Memref sig .tc .vmem S16x64 .bf16) (harg5 : arg5.IsWhole) (arg6 : Memref sig .tc .vmem S64 .f32) (harg6 : arg6.IsWhole)
    (arg7 : Memref sig .tc .vmem S4096x16 .f32) (harg7 : arg7.IsWhole) (arg8 : Memref sig .tc .vmem S4096x16 .f32) (harg8 : arg8.IsWhole)
    (x0 : Vec F S4096x128 .f32) (x1 : Vec F S4096x16 .f32) (x2 : Vec F S4096x16 .f32) (x3 : Vec F S128x64 .bf16) (x4 : Vec F S16x64 .bf16) (x5 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newHidden x0 x1 x2 x3 x4 x5) ∗ owns (c : Thread nD τ) arg8 fullShare (newCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

end Cert.KernelIdeal.CellFrame

end
-- ==== Proof.CellRunIdeal.lean ====
import proofs.«407122_j63848983822341_3_alg».proof.Proof.CellFrameIdeal

/-!
# The launch's proof data, the body at every tile, and the run

Per tile the six input buffers hold the tile's blocks (the three batch operands fetched afresh, the three weight
tables fetched once and kept), and the body leaves the two output buffers at the new hidden and cell states of those
blocks. The launch theorem of the pipeline library then gives the whole run, and from it the arguments' contents at the end.
-/

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after tile `t`'s body each input buffer at its block and the two
    output buffers at the new hidden and cell states of the tile's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newHidden (iblk m c 0 t) (iblk m c 1 t) (iblk m c 2 t) (iblk m c 3 t) (iblk m c 4 t) (iblk m c 5 t)
    | ⟨7, _⟩ => newCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_hidden (c : Dev nD) (t : Fin cfg0.N) : (dats m 0 c).after 6 t = newHidden (iblk m c 0 t) (iblk m c 1 t) (iblk m c 2 t) (iblk m c 3 t) (iblk m c 4 t) (iblk m c 5 t) := by dsimp only [dats]
theorem after_cell (c : Dev nD) (t : Fin cfg0.N) : (dats m 0 c).after 7 t = newCell (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body at a tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with the launch's arrays at what the proof data
    says and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its eleven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.CellFrame

end
-- ==== Proof.LstmSpec.lean ====
import Idealize.ShloMosaic.PureOps.Ideal
import Idealize.ShloMosaic.Lib.ValueIdx

/-!
# One step of an LSTM cell over the extended reals, row by row

A batch row carries an input row `x` of 128 entries, a hidden row `h` of 16 and a cell row `c` of 16. A gate with
weights `W` (16 × 144) and bias `b` (16) has, at unit `j`, the pre-activation `∑ₖ [x, h]ₖ · W j k + b j` over the joined
row `[x, h]` of 144 entries. The step is

  c' j = σ(pre_f j) · c j + σ(pre_i j) · tanh(pre_g j),   h' j = σ(pre_o j) · tanh(c' j),

with `σ u = 1 / (1 + e^(-u))`. Rows do not interact. The sum over the joined row is the sum over `x`'s 128 entries plus
the sum over `h`'s 16 (`gatePre_split`): sums on the extended reals commute and associate, so no finiteness is asked.
-/

noncomputable section

namespace Cert.LstmSpec

open Idealize.ShloMosaic Idealize.ShloMosaic.ValueIdx

/-- A gate's weights, 16 units by 144 joined columns; a gate's bias. -/
abbrev Wt : Type := (⟨2, ![16, 144]⟩ : Shape).Idx → EReal
abbrev Bs : Type := (⟨1, ![16]⟩ : Shape).Idx → EReal
/-- The batch arrays: 262144 rows of 128 and of 16. -/
abbrev Xs : Type := (⟨2, ![262144, 128]⟩ : Shape).Idx → EReal
abbrev Hs : Type := (⟨2, ![262144, 16]⟩ : Shape).Idx → EReal

/-- The pattern of `1.0` denotes the real one. -/
theorem ofBits_one : Ideal.ofBits .f32 0x3F800000#32 = 1 := by
  simp [Ideal.ofBits, Ideal.ieee, -EReal.coe_mul]; norm_num

/-- The joined row `[x, h]`: columns below 128 are `x`'s, the rest `h`'s. -/
def joined (xr : Fin 128 → EReal) (hr : Fin 16 → EReal) (k : Fin 144) : EReal :=
  if hk : k.val < 128 then xr ⟨k.val, hk⟩ else hr ⟨k.val - 128, by have := k.isLt; omega⟩

/-- A gate's pre-activation at unit `j`. -/
def gatePre (xr : Fin 128 → EReal) (hr : Fin 16 → EReal) (W : Wt) (b : Bs) (j : Fin 16) : EReal :=
  (∑ k : Fin 144, joined xr hr k * W (ix2 j k)) + b (ix1 j)

/-- The sum over the joined row is the sum over `x`'s columns plus the sum over `h`'s. -/
theorem gatePre_split (xr : Fin 128 → EReal) (hr : Fin 16 → EReal) (W : Wt) (b : Bs) (j : Fin 16) :
    gatePre xr hr W b j
      = ((∑ k : Fin 128, xr k * W (ix2 j ⟨k.val, by have := k.isLt; omega⟩))
          + ∑ k : Fin 16, hr k * W (ix2 j ⟨128 + k.val, by have := k.isLt; omega⟩)) + b (ix1 j) := by
  unfold gatePre
  congr 1
  have hs := Fin.sum_univ_add (M := EReal) (a := 128) (b := 16) (fun k : Fin (128 + 16) => joined xr hr ⟨k.val, k.isLt⟩ * W (ix2 j ⟨k.val, k.isLt⟩))
  refine hs.trans ?_
  congr 1

/-- The new cell row: forget gate times the old cell plus input gate times the candidate. -/
def cellRow (xr : Fin 128 → EReal) (hr cr : Fin 16 → EReal) (Wf : Wt) (bf : Bs) (Wi : Wt) (bi : Bs) (Wg : Wt) (bg : Bs)
    (j : Fin 16) : EReal :=
  Ideal.logistic (gatePre xr hr Wf bf j) * cr j + Ideal.logistic (gatePre xr hr Wi bi j) * Ideal.tanh (gatePre xr hr Wg bg j)

/-- The new hidden row: output gate times the squashed new cell. -/
def hiddenRow (xr : Fin 128 → EReal) (hr cr : Fin 16 → EReal) (Wf : Wt) (bf : Bs) (Wi : Wt) (bi : Bs) (Wg : Wt) (bg : Bs)
    (Wo : Wt) (bo : Bs) (j : Fin 16) : EReal :=
  Ideal.logistic (gatePre xr hr Wo bo j) * Ideal.tanh (cellRow xr hr cr Wf bf Wi bi Wg bg j)

/-- Row `r` of a batch array. -/
abbrev rowOf {n : Nat} (a : (⟨2, ![262144, n]⟩ : Shape).Idx → EReal) (r : Fin 262144) : Fin n → EReal := fun k => a (ix2 r k)

/-- The new cell state of the whole batch. -/
def cellArr (x : Xs) (h c : Hs) (Wf : Wt) (bf : Bs) (Wi : Wt) (bi : Bs) (Wg : Wt) (bg : Bs) : Hs :=
  fun i => cellRow (rowOf x ⟨(i 0).val, (i 0).isLt⟩) (rowOf h ⟨(i 0).val, (i 0).isLt⟩) (rowOf c ⟨(i 0).val, (i 0).isLt⟩)
    Wf bf Wi bi Wg bg ⟨(i 1).val, (i 1).isLt⟩

/-- The new hidden state of the whole batch. -/
def hiddenArr (x : Xs) (h c : Hs) (Wf : Wt) (bf : Bs) (Wi : Wt) (bi : Bs) (Wg : Wt) (bg : Bs) (Wo : Wt) (bo : Bs) : Hs :=
  fun i => hiddenRow (rowOf x ⟨(i 0).val, (i 0).isLt⟩) (rowOf h ⟨(i 0).val, (i 0).isLt⟩) (rowOf c ⟨(i 0).val, (i 0).isLt⟩)
    Wf bf Wi bi Wg bg Wo bo ⟨(i 1).val, (i 1).isLt⟩

end Cert.LstmSpec

end
-- ==== Proof.TileAlgebra.lean ====
import proofs.«407122_j63848983822341_3_alg».proof.Proof.Gen.KernelIdeal.Skeleton
import proofs.«407122_j63848983822341_3_alg».proof.Proof.LstmSpec
import Idealize.ShloMosaic.Lib.Pipeline.Value
import Idealize.ShloMosaic.Lib.ValueIdx
import Idealize.ShloMosaic.Lib.ValueLayout
import Idealize.ShloMosaic.PureOps.Ideal.Laws

/-!
# A tile's arithmetic, entry by entry

A tile holds 4096 batch rows. Its body multiplies the tile's `x` rows by the 128 × 64 table and its `h` rows by the
16 × 64 table, adds the two products and the bias row of 64, cuts the 64 columns into four gates of 16, and combines
them into the new cell and hidden rows. When column `16 g + q` of the three tables carries gate `g`'s weights and bias
of unit `q` (`Stacked`), the stacked pre-activation at that column is the gate's `gatePre` of the row, and the two stored
tiles are `cellRow` and `hiddenRow` of the tile's rows.
-/

noncomputable section

namespace Cert.KernelIdeal.TileAlgebra

open Cert.KernelIdeal Cert.KernelIdeal.Gen Cert.LstmSpec
open Idealize.ShloMosaic Idealize.ShloMosaic.ValueIdx

/-! ## The two products at an entry: a row of the tile times a column of the table -/

theorem lhs_x_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhs_x_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhs_x_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhs_x_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

theorem lhs_h_0 (i : S4096x64.Idx) (q : dot_S4096x16_S16x64_S4096x64_1_0_0_1_n_n.contr.Idx) :
    (dot_S4096x16_S16x64_S4096x64_1_0_0_1_n_n.lhsIdx i q 0).val = (i 0).val := by
  unfold DotDims.lhsIdx
  rw [dif_neg (show ¬(0 : Fin S4096x16.rank) ∈ dot_S4096x16_S16x64_S4096x64_1_0_0_1_n_n.lhsBatch by decide), dif_pos (show (0 : Fin S4096x16.rank) ∈ dot_S4096x16_S16x64_S4096x64_1_0_0_1_n_n.lhsNonContracting by decide)]
  rfl
theorem lhs_h_1 (i : S4096x64.Idx) (q : dot_S4096x16_S16x64_S4096x64_1_0_0_1_n_n.contr.Idx) :
    (dot_S4096x16_S16x64_S4096x64_1_0_0_1_n_n.lhsIdx i q 1).val = (q ⟨0, by decide⟩).val :=
  dot_S4096x16_S16x64_S4096x64_1_0_0_1_n_n.lhsIdx_val_of_single rfl i q
theorem rhs_h_0 (i : S4096x64.Idx) (q : dot_S4096x16_S16x64_S4096x64_1_0_0_1_n_n.contr.Idx) :
    (dot_S4096x16_S16x64_S4096x64_1_0_0_1_n_n.rhsIdx i q 0).val = (q ⟨0, by decide⟩).val :=
  dot_S4096x16_S16x64_S4096x64_1_0_0_1_n_n.rhsIdx_val_of_single rfl i q
theorem rhs_h_1 (i : S4096x64.Idx) (q : dot_S4096x16_S16x64_S4096x64_1_0_0_1_n_n.contr.Idx) :
    (dot_S4096x16_S16x64_S4096x64_1_0_0_1_n_n.rhsIdx i q 1).val = (i 1).val := by
  unfold DotDims.rhsIdx
  rw [dif_neg (show ¬(1 : Fin S16x64.rank) ∈ dot_S4096x16_S16x64_S4096x64_1_0_0_1_n_n.rhsBatch by decide), dif_pos (show (1 : Fin S16x64.rank) ∈ dot_S4096x16_S16x64_S4096x64_1_0_0_1_n_n.rhsNonContracting by decide)]
  rfl

/-- The \`x\` product into a zero accumulator, at row \`p\` and column \`n\`: the sum over the 128 input columns. -/
theorem xdot_at (l : FVec Ideal S4096x128 .bf16) (r : FVec Ideal S128x64 .bf16) (p : Fin 4096) (n : Fin 64) :
    matmul dot_S4096x128_S128x64_S4096x64_1_0_0_1_n_n none l r (constant (F := Ideal) S4096x64 .f32 0x00000000#32) (ix2 p n)
      = ∑ k : Fin 128, l (ix2 p k) * r (ix2 k n) := by
  show FloatOps.matmul dot_S4096x128_S128x64_S4096x64_1_0_0_1_n_n none l r (constant (F := Ideal) S4096x64 .f32 0x00000000#32) (ix2 p n) = _
  rw [Ideal.matmul_constant_zero_apply, ← Equiv.sum_comp (ValueIdx.contrEquiv1 dot_S4096x128_S128x64_S4096x64_1_0_0_1_n_n 128 rfl rfl).symm]
  refine Finset.sum_congr rfl fun k _ => ?_
  have hk := ValueIdx.contrEquiv1_symm_val dot_S4096x128_S128x64_S4096x64_1_0_0_1_n_n 128 rfl rfl k
  have el : dot_S4096x128_S128x64_S4096x64_1_0_0_1_n_n.lhsIdx (ix2 p n) ((ValueIdx.contrEquiv1 dot_S4096x128_S128x64_S4096x64_1_0_0_1_n_n 128 rfl rfl).symm k) = ix2 p k := funext fun a => Fin.ext (by
    match a with
    | ⟨0, _⟩ => exact lhs_x_0 _ _
    | ⟨1, _⟩ => exact (lhs_x_1 _ _).trans hk)
  have er : dot_S4096x128_S128x64_S4096x64_1_0_0_1_n_n.rhsIdx (ix2 p n) ((ValueIdx.contrEquiv1 dot_S4096x128_S128x64_S4096x64_1_0_0_1_n_n 128 rfl rfl).symm k) = ix2 k n := funext fun a => Fin.ext (by
    match a with
    | ⟨0, _⟩ => exact (rhs_x_0 _ _).trans hk
    | ⟨1, _⟩ => exact rhs_x_1 _ _)
  rw [el, er]

/-- The \`h\` product into a zero accumulator, at row \`p\` and column \`n\`: the sum over the 16 hidden columns. -/
theorem hdot_at (l : FVec Ideal S4096x16 .bf16) (r : FVec Ideal S16x64 .bf16) (p : Fin 4096) (n : Fin 64) :
    matmul dot_S4096x16_S16x64_S4096x64_1_0_0_1_n_n none l r (constant (F := Ideal) S4096x64 .f32 0x00000000#32) (ix2 p n)
      = ∑ k : Fin 16, l (ix2 p k) * r (ix2 k n) := by
  show FloatOps.matmul dot_S4096x16_S16x64_S4096x64_1_0_0_1_n_n none l r (constant (F := Ideal) S4096x64 .f32 0x00000000#32) (ix2 p n) = _
  rw [Ideal.matmul_constant_zero_apply, ← Equiv.sum_comp (ValueIdx.contrEquiv1 dot_S4096x16_S16x64_S4096x64_1_0_0_1_n_n 16 rfl rfl).symm]
  refine Finset.sum_congr rfl fun k _ => ?_
  have hk := ValueIdx.contrEquiv1_symm_val dot_S4096x16_S16x64_S4096x64_1_0_0_1_n_n 16 rfl rfl k
  have el : dot_S4096x16_S16x64_S4096x64_1_0_0_1_n_n.lhsIdx (ix2 p n) ((ValueIdx.contrEquiv1 dot_S4096x16_S16x64_S4096x64_1_0_0_1_n_n 16 rfl rfl).symm k) = ix2 p k := funext fun a => Fin.ext (by
    match a with
    | ⟨0, _⟩ => exact lhs_h_0 _ _
    | ⟨1, _⟩ => exact (lhs_h_1 _ _).trans hk)
  have er : dot_S4096x16_S16x64_S4096x64_1_0_0_1_n_n.rhsIdx (ix2 p n) ((ValueIdx.contrEquiv1 dot_S4096x16_S16x64_S4096x64_1_0_0_1_n_n 16 rfl rfl).symm k) = ix2 k n := funext fun a => Fin.ext (by
    match a with
    | ⟨0, _⟩ => exact (rhs_h_0 _ _).trans hk
    | ⟨1, _⟩ => exact rhs_h_1 _ _)
  rw [el, er]

/-! ## The stacked pre-activations -/

/-- The 64 stacked pre-activations of row `p` at column `n`: the two products plus the bias row. -/
theorem stacked_at (x0 : Vec Ideal S4096x128 .f32) (x1 : Vec Ideal S4096x16 .f32) (x3 : Vec Ideal S128x64 .bf16)
    (x4 : Vec Ideal S16x64 .bf16) (x5 : Vec Ideal S64 .f32) (p : Fin 4096) (n : Fin 64) :
    k0_pay1 x0 x1 x3 x4 x5 (ix2 p n)
      = ((∑ k : Fin 128, x0 (ix2 p k) * x3 (ix2 k n)) + ∑ k : Fin 16, x1 (ix2 p k) * x4 (ix2 k n)) + x5 (ix1 n) := by
  unfold k0_pay1
  simp only [addf_apply]
  rw [xdot_at, hdot_at, broadcastTo_1b_ab_apply, shapeCast_a_1a_apply, shapeCast_self, shapeCast_self, shapeCast_self]
  rfl

/-- Column `16 g + q` of the three stacked tables carries gate `g`'s weights and bias of unit `q`: the 128 × 64 table the
    `x` columns of `W`, the 16 × 64 table the `h` columns, the bias row `b`. -/
structure Stacked (x3 : Vec Ideal S128x64 .bf16) (x4 : Vec Ideal S16x64 .bf16) (x5 : Vec Ideal S64 .f32) (g : Nat) (hg : g < 4)
    (W : Wt) (b : Bs) : Prop where
  wx : ∀ (k : Fin 128) (q : Fin 16), x3 (ix2 k ⟨16 * g + q.val, by have := q.isLt; omega⟩) = W (ix2 q ⟨k.val, by have := k.isLt; omega⟩)
  wh : ∀ (k : Fin 16) (q : Fin 16), x4 (ix2 k ⟨16 * g + q.val, by have := q.isLt; omega⟩) = W (ix2 q ⟨128 + k.val, by have := k.isLt; omega⟩)
  bias : ∀ q : Fin 16, x5 (ix1 ⟨16 * g + q.val, by have := q.isLt; omega⟩) = b (ix1 q)

/-- Gate `g`'s pre-activation of row `p` at unit `q` sits at column `16 g + q` of the stacked ones. -/
theorem gate_at (x0 : Vec Ideal S4096x128 .f32) (x1 : Vec Ideal S4096x16 .f32) (x3 : Vec Ideal S128x64 .bf16)
    (x4 : Vec Ideal S16x64 .bf16) (x5 : Vec Ideal S64 .f32) (g : Nat) (hg : g < 4) (W : Wt) (b : Bs)
    (hS : Stacked x3 x4 x5 g hg W b) (p : Fin 4096) (q : Fin 16) :
    k0_pay1 x0 x1 x3 x4 x5 (ix2 p ⟨16 * g + q.val, by have := q.isLt; omega⟩)
      = gatePre (fun k => x0 (ix2 p k)) (fun k => x1 (ix2 p k)) W b q := by
  rw [stacked_at, gatePre_split, hS.bias q]
  congr 2
  · exact Finset.sum_congr rfl fun k _ => by rw [hS.wx k q]
  · exact Finset.sum_congr rfl fun k _ => by rw [hS.wh k q]

/-- Gate `g`'s sixteen columns cut out of the stacked pre-activations (the cut starts at column `o = 16 g`). -/
theorem gate_slice (x0 : Vec Ideal S4096x128 .f32) (x1 : Vec Ideal S4096x16 .f32) (x3 : Vec Ideal S128x64 .bf16)
    (x4 : Vec Ideal S16x64 .bf16) (x5 : Vec Ideal S64 .f32) (g : Nat) (hg : g < 4) (W : Wt) (b : Bs)
    (hS : Stacked x3 x4 x5 g hg W b) (o : Nat) (ho : o = 16 * g) (h : S4096x64.Slices ![0, o] S4096x16) (p : Fin 4096) (q : Fin 16) :
    extractStridedSlice S4096x16 ![0, o] (k0_pay1 x0 x1 x3 x4 x5) h (ix2 p q)
      = gatePre (fun k => x0 (ix2 p k)) (fun k => x1 (ix2 p k)) W b q := by
  subst ho
  exact (slice2_axis1_apply (16 * g) _ h p q ⟨16 * g + q.val, by have := q.isLt; omega⟩ rfl).trans
    (gate_at x0 x1 x3 x4 x5 g hg W b hS p q)

/-- The stored cell tile at row `p`, unit `q`: the cell step of the tile's row `p`. -/
theorem cell_at (x0 : Vec Ideal S4096x128 .f32) (x1 x2 : Vec Ideal S4096x16 .f32) (x3 : Vec Ideal S128x64 .bf16)
    (x4 : Vec Ideal S16x64 .bf16) (x5 : Vec Ideal S64 .f32) (Wf : Wt) (bf : Bs) (Wi : Wt) (bi : Bs) (Wg : Wt) (bg : Bs)
    (hf : Stacked x3 x4 x5 0 (by decide) Wf bf) (hi : Stacked x3 x4 x5 1 (by decide) Wi bi) (hc : Stacked x3 x4 x5 2 (by decide) Wg bg)
    (p : Fin 4096) (q : Fin 16) :
    k0_pay2 x0 x1 x2 x3 x4 x5 (ix2 p q)
      = cellRow (fun k => x0 (ix2 p k)) (fun k => x1 (ix2 p k)) (fun k => x2 (ix2 p k)) Wf bf Wi bi Wg bg q := by
  unfold k0_pay2 cellRow
  exact congrArg₂ (· + ·)
    (congrArg₂ (· * ·) (congrArg Ideal.logistic (gate_slice x0 x1 x3 x4 x5 0 (by decide) Wf bf hf 0 rfl _ p q)) rfl)
    (congrArg₂ (· * ·) (congrArg Ideal.logistic (gate_slice x0 x1 x3 x4 x5 1 (by decide) Wi bi hi 16 rfl _ p q))
      (congrArg Ideal.tanh (gate_slice x0 x1 x3 x4 x5 2 (by decide) Wg bg hc 32 rfl _ p q)))

/-- The stored hidden tile at row `p`, unit `q`: the hidden step of the tile's row `p`. -/
theorem hidden_at (x0 : Vec Ideal S4096x128 .f32) (x1 x2 : Vec Ideal S4096x16 .f32) (x3 : Vec Ideal S128x64 .bf16)
    (x4 : Vec Ideal S16x64 .bf16) (x5 : Vec Ideal S64 .f32) (Wf : Wt) (bf : Bs) (Wi : Wt) (bi : Bs) (Wg : Wt) (bg : Bs) (Wo : Wt) (bo : Bs)
    (hf : Stacked x3 x4 x5 0 (by decide) Wf bf) (hi : Stacked x3 x4 x5 1 (by decide) Wi bi) (hc : Stacked x3 x4 x5 2 (by decide) Wg bg)
    (ho : Stacked x3 x4 x5 3 (by decide) Wo bo) (p : Fin 4096) (q : Fin 16) :
    k0_pay3 x0 x1 x2 x3 x4 x5 (ix2 p q)
      = hiddenRow (fun k => x0 (ix2 p k)) (fun k => x1 (ix2 p k)) (fun k => x2 (ix2 p k)) Wf bf Wi bi Wg bg Wo bo q := by
  unfold k0_pay3 hiddenRow
  exact congrArg₂ (· * ·) (congrArg Ideal.logistic (gate_slice x0 x1 x3 x4 x5 3 (by decide) Wo bo ho 48 rfl _ p q))
    (congrArg Ideal.tanh (cell_at x0 x1 x2 x3 x4 x5 Wf bf Wi bi Wg bg hf hi hc p q))

/-! ## The batch arrays at an index, by row and unit -/

theorem cellArr_at (x : Xs) (h c : Hs) (Wf : Wt) (bf : Bs) (Wi : Wt) (bi : Bs) (Wg : Wt) (bg : Bs)
    (i : (⟨2, ![262144, 16]⟩ : Shape).Idx) (r : Fin 262144) (j : Fin 16) (h0 : (i 0).val = r.val) (h1 : (i 1).val = j.val) :
    cellArr x h c Wf bf Wi bi Wg bg i = cellRow (rowOf x r) (rowOf h r) (rowOf c r) Wf bf Wi bi Wg bg j := by
  have e0 : (⟨(i 0).val, (i 0).isLt⟩ : Fin 262144) = r := Fin.ext h0
  have e1 : (⟨(i 1).val, (i 1).isLt⟩ : Fin 16) = j := Fin.ext h1
  unfold cellArr
  rw [e0, e1]

theorem hiddenArr_at (x : Xs) (h c : Hs) (Wf : Wt) (bf : Bs) (Wi : Wt) (bi : Bs) (Wg : Wt) (bg : Bs) (Wo : Wt) (bo : Bs)
    (i : (⟨2, ![262144, 16]⟩ : Shape).Idx) (r : Fin 262144) (j : Fin 16) (h0 : (i 0).val = r.val) (h1 : (i 1).val = j.val) :
    hiddenArr x h c Wf bf Wi bi Wg bg Wo bo i = hiddenRow (rowOf x r) (rowOf h r) (rowOf c r) Wf bf Wi bi Wg bg Wo bo j := by
  have e0 : (⟨(i 0).val, (i 0).isLt⟩ : Fin 262144) = r := Fin.ext h0
  have e1 : (⟨(i 1).val, (i 1).isLt⟩ : Fin 16) = j := Fin.ext h1
  unfold hiddenArr
  rw [e0, e1]

end Cert.KernelIdeal.TileAlgebra

end
-- ==== Proof.StackedTables.lean ====
import proofs.«407122_j63848983822341_3_alg».proof.Proof.CellFrameIdeal
import proofs.«407122_j63848983822341_3_alg».proof.Proof.TileAlgebra
import Idealize.ShloMosaic.Lib.StableHlo.Run

/-!
# The stacked weight tables, read back

Before the launch the program cuts each gate's 16 × 144 weights into the 128 `x` columns and the 16 `h` columns, transposes
each cut, and lays the four gates side by side: a 128 × 64 table, a 16 × 64 table, and the four biases end to end as a row
of 64. Column `16 g + q` of each table is therefore gate `g`'s unit `q` — the `Stacked` facts of the tile's arithmetic.
-/

noncomputable section

namespace Cert.KernelIdeal.Tables

open Cert.KernelIdeal Cert.KernelIdeal.Gen Cert.KernelIdeal.CellFrame Cert.KernelIdeal.TileAlgebra Cert.LstmSpec
open Idealize.ShloMosaic Idealize.ShloMosaic.TcCoe Idealize.ShloMosaic.ValueIdx Idealize.SL.Sem Idealize.ShloMosaic.StableHlo

/-- A gate's `x` columns, transposed to 128 × 16. -/
abbrev xPart (W : Vec Ideal S16x144 .f32) : Vec Ideal S128x16 .f32 :=
  transpose S128x16 [1, 0] (extractStridedSlice S16x128 ![0, 0] W slices_S16x144_S16x128_0_0) transposes_S16x128_S128x16_1_0
/-- A gate's `h` columns, transposed to 16 × 16. -/
abbrev hPart (W : Vec Ideal S16x144 .f32) : Vec Ideal S16x16 .f32 :=
  transpose S16x16 [1, 0] (extractStridedSlice S16x16 ![0, 128] W slices_S16x144_S16x16_0_128) transposes_S16x16_S16x16_1_0

/-- The 128 × 64 table: the four gates' `x` parts side by side. -/
def wxTable (W0 W1 W2 W3 : Vec Ideal S16x144 .f32) : Vec Ideal S128x64 .bf16 :=
  truncf (F := Ideal) .bf16 (concatenate S128x64 1 [⟨S128x16, xPart W0⟩, ⟨S128x16, xPart W1⟩, ⟨S128x16, xPart W2⟩, ⟨S128x16, xPart W3⟩]
    concatenates_S128x16_S128x16_S128x16_S128x16_S128x64_d1) bitsLt_bf16_f32
/-- The 16 × 64 table: the four gates' `h` parts side by side. -/
def whTable (W0 W1 W2 W3 : Vec Ideal S16x144 .f32) : Vec Ideal S16x64 .bf16 :=
  truncf (F := Ideal) .bf16 (concatenate S16x64 1 [⟨S16x16, hPart W0⟩, ⟨S16x16, hPart W1⟩, ⟨S16x16, hPart W2⟩, ⟨S16x16, hPart W3⟩]
    concatenates_S16x16_S16x16_S16x16_S16x16_S16x64_d1) bitsLt_bf16_f32
/-- The bias row: the four biases end to end. -/
def bTable (b0 b1 b2 b3 : Vec Ideal S16 .f32) : Vec Ideal S64 .f32 :=
  concatenate S64 0 [⟨S16, b0⟩, ⟨S16, b1⟩, ⟨S16, b2⟩, ⟨S16, b3⟩] concatenates_S16_S16_S16_S16_S64_d0

variable (m : (ℓ : Loc nD τ sig) → Buf (Elt Ideal) ℓ)

/-- What the launch finds in the three table buffers. -/
theorem V_wx (c : Dev nD) : (V m c main_v9 : Vec Ideal S128x64 .bf16)
    = wxTable (m ((c : Thread nD τ).loc main_arg3)) (m ((c : Thread nD τ).loc main_arg5)) (m ((c : Thread nD τ).loc main_arg7)) (m ((c : Thread nD τ).loc main_arg9)) := by
  dsimp only [V, hostOps0]
  after_results_simp
  rfl

theorem V_wh (c : Dev nD) : (V m c main_v19 : Vec Ideal S16x64 .bf16)
    = whTable (m ((c : Thread nD τ).loc main_arg3)) (m ((c : Thread nD τ).loc main_arg5)) (m ((c : Thread nD τ).loc main_arg7)) (m ((c : Thread nD τ).loc main_arg9)) := by
  dsimp only [V, hostOps0]
  after_results_simp
  rfl

theorem V_b (c : Dev nD) : (V m c main_v20 : Vec Ideal S64 .f32)
    = bTable (m ((c : Thread nD τ).loc main_arg4)) (m ((c : Thread nD τ).loc main_arg6)) (m ((c : Thread nD τ).loc main_arg8)) (m ((c : Thread nD τ).loc main_arg10)) := by
  dsimp only [V, hostOps0]
  after_results_simp
  rfl

/-! ## Four pieces of sixteen columns side by side, read at column `16 g + q` -/

/-- Four `R × 16` pieces laid side by side: column `16 g + q` of the result is column `q` of piece `g`. -/
theorem cols_of_four {R : Nat} (P0 P1 P2 P3 : (⟨2, ![R, 16]⟩ : Shape).Idx → EReal)
    (h : Shape.Concatenates [(⟨2, ![R, 16]⟩ : Shape), ⟨2, ![R, 16]⟩, ⟨2, ![R, 16]⟩, ⟨2, ![R, 16]⟩] ⟨2, ![R, 64]⟩ 1)
    (k : Fin R) (q : Fin 16) :
    concatenate ⟨2, ![R, 64]⟩ 1 [⟨⟨2, ![R, 16]⟩, P0⟩, ⟨⟨2, ![R, 16]⟩, P1⟩, ⟨⟨2, ![R, 16]⟩, P2⟩, ⟨⟨2, ![R, 16]⟩, P3⟩] h
        (ix2 k ⟨16 * 0 + q.val, by have := q.isLt; omega⟩) = P0 (ix2 k q)
    ∧ concatenate ⟨2, ![R, 64]⟩ 1 [⟨⟨2, ![R, 16]⟩, P0⟩, ⟨⟨2, ![R, 16]⟩, P1⟩, ⟨⟨2, ![R, 16]⟩, P2⟩, ⟨⟨2, ![R, 16]⟩, P3⟩] h
        (ix2 k ⟨16 * 1 + q.val, by have := q.isLt; omega⟩) = P1 (ix2 k q)
    ∧ concatenate ⟨2, ![R, 64]⟩ 1 [⟨⟨2, ![R, 16]⟩, P0⟩, ⟨⟨2, ![R, 16]⟩, P1⟩, ⟨⟨2, ![R, 16]⟩, P2⟩, ⟨⟨2, ![R, 16]⟩, P3⟩] h
        (ix2 k ⟨16 * 2 + q.val, by have := q.isLt; omega⟩) = P2 (ix2 k q)
    ∧ concatenate ⟨2, ![R, 64]⟩ 1 [⟨⟨2, ![R, 16]⟩, P0⟩, ⟨⟨2, ![R, 16]⟩, P1⟩, ⟨⟨2, ![R, 16]⟩, P2⟩, ⟨⟨2, ![R, 16]⟩, P3⟩] h
        (ix2 k ⟨16 * 3 + q.val, by have := q.isLt; omega⟩) = P3 (ix2 k q) :=
  ⟨concatenate_apply_piece (t := ⟨2, ![R, 64]⟩) (1 : Fin 2) [⟨⟨2, ![R, 16]⟩, P0⟩, ⟨⟨2, ![R, 16]⟩, P1⟩, ⟨⟨2, ![R, 16]⟩, P2⟩, ⟨⟨2, ![R, 16]⟩, P3⟩] h _ 0 (by simp) ⟨2, ![R, 16]⟩ P0 rfl rfl (16 * 0) rfl (ix2 k q)
      (fun b hb => match b, hb with
        | ⟨0, _⟩, _ => rfl
        | ⟨1, _⟩, hb => absurd rfl hb)
      rfl,
   concatenate_apply_piece (t := ⟨2, ![R, 64]⟩) (1 : Fin 2) [⟨⟨2, ![R, 16]⟩, P0⟩, ⟨⟨2, ![R, 16]⟩, P1⟩, ⟨⟨2, ![R, 16]⟩, P2⟩, ⟨⟨2, ![R, 16]⟩, P3⟩] h _ 1 (by simp) ⟨2, ![R, 16]⟩ P1 rfl rfl (16 * 1) rfl (ix2 k q)
      (fun b hb => match b, hb with
        | ⟨0, _⟩, _ => rfl
        | ⟨1, _⟩, hb => absurd rfl hb)
      rfl,
   concatenate_apply_piece (t := ⟨2, ![R, 64]⟩) (1 : Fin 2) [⟨⟨2, ![R, 16]⟩, P0⟩, ⟨⟨2, ![R, 16]⟩, P1⟩, ⟨⟨2, ![R, 16]⟩, P2⟩, ⟨⟨2, ![R, 16]⟩, P3⟩] h _ 2 (by simp) ⟨2, ![R, 16]⟩ P2 rfl rfl (16 * 2) rfl (ix2 k q)
      (fun b hb => match b, hb with
        | ⟨0, _⟩, _ => rfl
        | ⟨1, _⟩, hb => absurd rfl hb)
      rfl,
   concatenate_apply_piece (t := ⟨2, ![R, 64]⟩) (1 : Fin 2) [⟨⟨2, ![R, 16]⟩, P0⟩, ⟨⟨2, ![R, 16]⟩, P1⟩, ⟨⟨2, ![R, 16]⟩, P2⟩, ⟨⟨2, ![R, 16]⟩, P3⟩] h _ 3 (by simp) ⟨2, ![R, 16]⟩ P3 rfl rfl (16 * 3) rfl (ix2 k q)
      (fun b hb => match b, hb with
        | ⟨0, _⟩, _ => rfl
        | ⟨1, _⟩, hb => absurd rfl hb)
      rfl⟩

/-- Four rows of sixteen laid end to end: entry `16 g + q` of the result is entry `q` of piece `g`. -/
theorem row_of_four (b0 b1 b2 b3 : (⟨1, ![16]⟩ : Shape).Idx → EReal)
    (h : Shape.Concatenates [(⟨1, ![16]⟩ : Shape), ⟨1, ![16]⟩, ⟨1, ![16]⟩, ⟨1, ![16]⟩] ⟨1, ![64]⟩ 0) (q : Fin 16) :
    concatenate ⟨1, ![64]⟩ 0 [⟨⟨1, ![16]⟩, b0⟩, ⟨⟨1, ![16]⟩, b1⟩, ⟨⟨1, ![16]⟩, b2⟩, ⟨⟨1, ![16]⟩, b3⟩] h (ix1 ⟨16 * 0 + q.val, by have := q.isLt; omega⟩) = b0 (ix1 q)
    ∧ concatenate ⟨1, ![64]⟩ 0 [⟨⟨1, ![16]⟩, b0⟩, ⟨⟨1, ![16]⟩, b1⟩, ⟨⟨1, ![16]⟩, b2⟩, ⟨⟨1, ![16]⟩, b3⟩] h (ix1 ⟨16 * 1 + q.val, by have := q.isLt; omega⟩) = b1 (ix1 q)
    ∧ concatenate ⟨1, ![64]⟩ 0 [⟨⟨1, ![16]⟩, b0⟩, ⟨⟨1, ![16]⟩, b1⟩, ⟨⟨1, ![16]⟩, b2⟩, ⟨⟨1, ![16]⟩, b3⟩] h (ix1 ⟨16 * 2 + q.val, by have := q.isLt; omega⟩) = b2 (ix1 q)
    ∧ concatenate ⟨1, ![64]⟩ 0 [⟨⟨1, ![16]⟩, b0⟩, ⟨⟨1, ![16]⟩, b1⟩, ⟨⟨1, ![16]⟩, b2⟩, ⟨⟨1, ![16]⟩, b3⟩] h (ix1 ⟨16 * 3 + q.val, by have := q.isLt; omega⟩) = b3 (ix1 q) :=
  ⟨concatenate_apply_piece (t := ⟨1, ![64]⟩) (0 : Fin 1) [⟨⟨1, ![16]⟩, b0⟩, ⟨⟨1, ![16]⟩, b1⟩, ⟨⟨1, ![16]⟩, b2⟩, ⟨⟨1, ![16]⟩, b3⟩] h _ 0 (by simp) ⟨1, ![16]⟩ b0 rfl rfl (16 * 0) rfl (ix1 q)
      (fun b hb => match b, hb with
        | ⟨0, _⟩, hb => absurd rfl hb)
      rfl,
   concatenate_apply_piece (t := ⟨1, ![64]⟩) (0 : Fin 1) [⟨⟨1, ![16]⟩, b0⟩, ⟨⟨1, ![16]⟩, b1⟩, ⟨⟨1, ![16]⟩, b2⟩, ⟨⟨1, ![16]⟩, b3⟩] h _ 1 (by simp) ⟨1, ![16]⟩ b1 rfl rfl (16 * 1) rfl (ix1 q)
      (fun b hb => match b, hb with
        | ⟨0, _⟩, hb => absurd rfl hb)
      rfl,
   concatenate_apply_piece (t := ⟨1, ![64]⟩) (0 : Fin 1) [⟨⟨1, ![16]⟩, b0⟩, ⟨⟨1, ![16]⟩, b1⟩, ⟨⟨1, ![16]⟩, b2⟩, ⟨⟨1, ![16]⟩, b3⟩] h _ 2 (by simp) ⟨1, ![16]⟩ b2 rfl rfl (16 * 2) rfl (ix1 q)
      (fun b hb => match b, hb with
        | ⟨0, _⟩, hb => absurd rfl hb)
      rfl,
   concatenate_apply_piece (t := ⟨1, ![64]⟩) (0 : Fin 1) [⟨⟨1, ![16]⟩, b0⟩, ⟨⟨1, ![16]⟩, b1⟩, ⟨⟨1, ![16]⟩, b2⟩, ⟨⟨1, ![16]⟩, b3⟩] h _ 3 (by simp) ⟨1, ![16]⟩ b3 rfl rfl (16 * 3) rfl (ix1 q)
      (fun b hb => match b, hb with
        | ⟨0, _⟩, hb => absurd rfl hb)
      rfl⟩

/-! ## A gate's transposed cuts, read back -/

/-- Row `k`, column `q` of a gate's transposed `x` cut is the gate's weight of unit `q` at `x` column `k`. -/
theorem xPart_at (W : Vec Ideal S16x144 .f32) (k : Fin 128) (q : Fin 16) :
    xPart W (ix2 k q) = W (ix2 q ⟨k.val, by have := k.isLt; omega⟩) :=
  (transpose_ix2_apply _ _ k q).trans (slice2_axis1_apply 0 W _ q k ⟨k.val, by have := k.isLt; omega⟩ (Nat.zero_add _).symm)

/-- Row `k`, column `q` of a gate's transposed `h` cut is the gate's weight of unit `q` at joined column `128 + k`. -/
theorem hPart_at (W : Vec Ideal S16x144 .f32) (k : Fin 16) (q : Fin 16) :
    hPart W (ix2 k q) = W (ix2 q ⟨128 + k.val, by have := k.isLt; omega⟩) :=
  (transpose_ix2_apply _ _ k q).trans (slice2_axis1_apply 128 W _ q k ⟨128 + k.val, by have := k.isLt; omega⟩ rfl)

/-! ## The tables carry the four gates -/

theorem stacked_tables (W0 W1 W2 W3 : Vec Ideal S16x144 .f32) (b0 b1 b2 b3 : Vec Ideal S16 .f32) :
    Stacked (wxTable W0 W1 W2 W3) (whTable W0 W1 W2 W3) (bTable b0 b1 b2 b3) 0 (by decide) W0 b0
    ∧ Stacked (wxTable W0 W1 W2 W3) (whTable W0 W1 W2 W3) (bTable b0 b1 b2 b3) 1 (by decide) W1 b1
    ∧ Stacked (wxTable W0 W1 W2 W3) (whTable W0 W1 W2 W3) (bTable b0 b1 b2 b3) 2 (by decide) W2 b2
    ∧ Stacked (wxTable W0 W1 W2 W3) (whTable W0 W1 W2 W3) (bTable b0 b1 b2 b3) 3 (by decide) W3 b3 :=
  ⟨{ wx := fun k q => ((cols_of_four (xPart W0) (xPart W1) (xPart W2) (xPart W3) concatenates_S128x16_S128x16_S128x16_S128x16_S128x64_d1 k q).1).trans (xPart_at W0 k q),
      wh := fun k q => ((cols_of_four (hPart W0) (hPart W1) (hPart W2) (hPart W3) concatenates_S16x16_S16x16_S16x16_S16x16_S16x64_d1 k q).1).trans (hPart_at W0 k q),
      bias := fun q => (row_of_four b0 b1 b2 b3 concatenates_S16_S16_S16_S16_S64_d0 q).1 },
   { wx := fun k q => ((cols_of_four (xPart W0) (xPart W1) (xPart W2) (xPart W3) concatenates_S128x16_S128x16_S128x16_S128x16_S128x64_d1 k q).2.1).trans (xPart_at W1 k q),
      wh := fun k q => ((cols_of_four (hPart W0) (hPart W1) (hPart W2) (hPart W3) concatenates_S16x16_S16x16_S16x16_S16x16_S16x64_d1 k q).2.1).trans (hPart_at W1 k q),
      bias := fun q => (row_of_four b0 b1 b2 b3 concatenates_S16_S16_S16_S16_S64_d0 q).2.1 },
   { wx := fun k q => ((cols_of_four (xPart W0) (xPart W1) (xPart W2) (xPart W3) concatenates_S128x16_S128x16_S128x16_S128x16_S128x64_d1 k q).2.2.1).trans (xPart_at W2 k q),
      wh := fun k q => ((cols_of_four (hPart W0) (hPart W1) (hPart W2) (hPart W3) concatenates_S16x16_S16x16_S16x16_S16x16_S16x64_d1 k q).2.2.1).trans (hPart_at W2 k q),
      bias := fun q => (row_of_four b0 b1 b2 b3 concatenates_S16_S16_S16_S16_S64_d0 q).2.2.1 },
   { wx := fun k q => ((cols_of_four (xPart W0) (xPart W1) (xPart W2) (xPart W3) concatenates_S128x16_S128x16_S128x16_S128x16_S128x64_d1 k q).2.2.2).trans (xPart_at W3 k q),
      wh := fun k q => ((cols_of_four (hPart W0) (hPart W1) (hPart W2) (hPart W3) concatenates_S16x16_S16x16_S16x16_S16x16_S16x64_d1 k q).2.2.2).trans (hPart_at W3 k q),
      bias := fun q => (row_of_four b0 b1 b2 b3 concatenates_S16_S16_S16_S16_S64_d0 q).2.2.2 }⟩

end Cert.KernelIdeal.Tables

end
-- ==== Proof.CellValueIdeal.lean ====
import proofs.«407122_j63848983822341_3_alg».proof.Proof.CellRunIdeal
import proofs.«407122_j63848983822341_3_alg».proof.Proof.StackedTables
import Idealize.ShloMosaic.Lib.Pipeline.Value

/-!
# What the launch leaves in the two result arrays

Tile `t` covers batch rows `4096 t … 4096 t + 4095`: its `x`, `h`, `c` blocks are those rows of the arguments, its three
table blocks are the whole stacked tables, and what it writes back is rows `4096 t …` of the specification's new hidden and
cell arrays (the tile's arithmetic of `TileAlgebra` over the stacked tables of `StackedTables`). The 64 tiles cover all
262144 rows, so after the run the two result arrays are the specification's, and the arguments are untouched.
-/

set_option maxRecDepth 16384

noncomputable section

namespace Cert.KernelIdeal.CellValue

open Cert.KernelIdeal Cert.KernelIdeal.Gen Cert.KernelIdeal.CellFrame Cert.KernelIdeal.TileAlgebra Cert.KernelIdeal.Tables Cert.LstmSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- Where each operand's block sits at tile `t`: the batch operands and the results at block row `t`, the tables at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 64 := lt_of_lt_of_eq t.isLt N_0

/-! ## The input blocks of a tile -/

/-- Row `p` of tile `t`'s `x` block is batch row `4096 t + p` of `x`. -/
theorem xblk_at (c : Dev nD) (t : Fin cfg0.N) (p : Fin 4096) (k : Fin 128) :
    (iblk m c 0 t : Vec Ideal S4096x128 .f32) (ix2 p k)
      = (m ((c : Thread nD τ).loc main_arg0) : Xs) (ix2 ⟨4096 * t.val + p.val, by have := t_lt t; have := p.isLt; omega⟩ k) := by
  unfold iblk
  rw [View.read_apply]
  show V m c main_arg0 _ = _
  rw [V_main_arg0]
  refine congrArg _ (funext fun a => Fin.ext ?_)
  match a with
  | ⟨0, _⟩ => show win0_0.index t (0 : Fin 2) * 4096 + 1 * p.val = 4096 * t.val + p.val; rw [(idx_facts t).1]; omega
  | ⟨1, _⟩ => show win0_0.index t (1 : Fin 2) * 128 + 1 * k.val = k.val; rw [(idx_facts t).2.1]; omega

/-- Row `p` of tile `t`'s `h` block is batch row `4096 t + p` of `h`. -/
theorem hblk_at (c : Dev nD) (t : Fin cfg0.N) (p : Fin 4096) (k : Fin 16) :
    (iblk m c 1 t : Vec Ideal S4096x16 .f32) (ix2 p k)
      = (m ((c : Thread nD τ).loc main_arg1) : Hs) (ix2 ⟨4096 * t.val + p.val, by have := t_lt t; have := p.isLt; omega⟩ k) := by
  unfold iblk
  rw [View.read_apply]
  show V m c main_arg1 _ = _
  rw [V_main_arg1]
  refine congrArg _ (funext fun a => Fin.ext ?_)
  match a with
  | ⟨0, _⟩ => show win0_1.index t (0 : Fin 2) * 4096 + 1 * p.val = 4096 * t.val + p.val; rw [(idx_facts t).2.2.1]; omega
  | ⟨1, _⟩ => show win0_1.index t (1 : Fin 2) * 16 + 1 * k.val = k.val; rw [(idx_facts t).2.2.2.1]; omega

/-- Row `p` of tile `t`'s `c` block is batch row `4096 t + p` of `c`. -/
theorem cblk_at (c : Dev nD) (t : Fin cfg0.N) (p : Fin 4096) (k : Fin 16) :
    (iblk m c 2 t : Vec Ideal S4096x16 .f32) (ix2 p k)
      = (m ((c : Thread nD τ).loc main_arg2) : Hs) (ix2 ⟨4096 * t.val + p.val, by have := t_lt t; have := p.isLt; omega⟩ k) := by
  unfold iblk
  rw [View.read_apply]
  show V m c main_arg2 _ = _
  rw [V_main_arg2]
  refine congrArg _ (funext fun a => Fin.ext ?_)
  match a with
  | ⟨0, _⟩ => show win0_2.index t (0 : Fin 2) * 4096 + 1 * p.val = 4096 * t.val + p.val; rw [(idx_facts t).2.2.2.2.1]; omega
  | ⟨1, _⟩ => show win0_2.index t (1 : Fin 2) * 16 + 1 * k.val = k.val; rw [(idx_facts t).2.2.2.2.2.1]; omega

/-- Every tile's 128 × 64 block is the whole stacked table. -/
theorem wxblk_eq (c : Dev nD) (t : Fin cfg0.N) :
    (iblk m c 3 t : Vec Ideal S128x64 .bf16)
      = wxTable (m ((c : Thread nD τ).loc main_arg3)) (m ((c : Thread nD τ).loc main_arg5)) (m ((c : Thread nD τ).loc main_arg7)) (m ((c : Thread nD τ).loc main_arg9)) := by
  rw [← V_wx m c]
  funext y
  unfold iblk
  rw [View.read_apply]
  show V m c main_v9 _ = V m c main_v9 y
  refine congrArg _ (funext fun a => Fin.ext ?_)
  match a with
  | ⟨0, _⟩ => show win0_3.index t (0 : Fin 2) * 128 + 1 * (y 0).val = (y 0).val; rw [(idx_facts t).2.2.2.2.2.2.1]; omega
  | ⟨1, _⟩ => show win0_3.index t (1 : Fin 2) * 64 + 1 * (y 1).val = (y 1).val; rw [(idx_facts t).2.2.2.2.2.2.2.1]; omega

/-- Every tile's 16 × 64 block is the whole stacked table. -/
theorem whblk_eq (c : Dev nD) (t : Fin cfg0.N) :
    (iblk m c 4 t : Vec Ideal S16x64 .bf16)
      = whTable (m ((c : Thread nD τ).loc main_arg3)) (m ((c : Thread nD τ).loc main_arg5)) (m ((c : Thread nD τ).loc main_arg7)) (m ((c : Thread nD τ).loc main_arg9)) := by
  rw [← V_wh m c]
  funext y
  unfold iblk
  rw [View.read_apply]
  show V m c main_v19 _ = V m c main_v19 y
  refine congrArg _ (funext fun a => Fin.ext ?_)
  match a with
  | ⟨0, _⟩ => show win0_4.index t (0 : Fin 2) * 16 + 1 * (y 0).val = (y 0).val; rw [(idx_facts t).2.2.2.2.2.2.2.2.1]; omega
  | ⟨1, _⟩ => show win0_4.index t (1 : Fin 2) * 64 + 1 * (y 1).val = (y 1).val; rw [(idx_facts t).2.2.2.2.2.2.2.2.2.1]; omega

/-- Every tile's bias block is the whole stacked bias row. -/
theorem bblk_eq (c : Dev nD) (t : Fin cfg0.N) :
    (iblk m c 5 t : Vec Ideal S64 .f32)
      = bTable (m ((c : Thread nD τ).loc main_arg4)) (m ((c : Thread nD τ).loc main_arg6)) (m ((c : Thread nD τ).loc main_arg8)) (m ((c : Thread nD τ).loc main_arg10)) := by
  rw [← V_b m c]
  funext y
  unfold iblk
  rw [View.read_apply]
  show V m c main_v20 _ = V m c main_v20 y
  refine congrArg _ (funext fun a => Fin.ext ?_)
  match a with
  | ⟨0, _⟩ => show win0_5.index t (0 : Fin 1) * 64 + 1 * (y 0).val = (y 0).val; rw [(idx_facts t).2.2.2.2.2.2.2.2.2.2.1]; omega

/-! ## The tables at a tile carry the four gates -/

theorem tile_stacked (c : Dev nD) (t : Fin cfg0.N) :
    Stacked (iblk m c 3 t) (iblk m c 4 t) (iblk m c 5 t) 0 (by decide) (m ((c : Thread nD τ).loc main_arg3)) (m ((c : Thread nD τ).loc main_arg4))
    ∧ Stacked (iblk m c 3 t) (iblk m c 4 t) (iblk m c 5 t) 1 (by decide) (m ((c : Thread nD τ).loc main_arg5)) (m ((c : Thread nD τ).loc main_arg6))
    ∧ Stacked (iblk m c 3 t) (iblk m c 4 t) (iblk m c 5 t) 2 (by decide) (m ((c : Thread nD τ).loc main_arg7)) (m ((c : Thread nD τ).loc main_arg8))
    ∧ Stacked (iblk m c 3 t) (iblk m c 4 t) (iblk m c 5 t) 3 (by decide) (m ((c : Thread nD τ).loc main_arg9)) (m ((c : Thread nD τ).loc main_arg10)) := by
  rw [wxblk_eq, whblk_eq, bblk_eq]
  exact stacked_tables _ _ _ _ _ _ _ _

/-! ## The rows of a tile are rows of the batch -/

theorem xrow_eq (c : Dev nD) (t : Fin cfg0.N) (p : Fin 4096) :
    (fun k : Fin 128 => (iblk m c 0 t : Vec Ideal S4096x128 .f32) (ix2 p k)) = rowOf (m ((c : Thread nD τ).loc main_arg0) : Xs) ⟨4096 * t.val + p.val, by have := t_lt t; have := p.isLt; omega⟩ :=
  funext fun k => xblk_at m c t p k
theorem hrow_eq (c : Dev nD) (t : Fin cfg0.N) (p : Fin 4096) :
    (fun k : Fin 16 => (iblk m c 1 t : Vec Ideal S4096x16 .f32) (ix2 p k)) = rowOf (m ((c : Thread nD τ).loc main_arg1) : Hs) ⟨4096 * t.val + p.val, by have := t_lt t; have := p.isLt; omega⟩ :=
  funext fun k => hblk_at m c t p k
theorem crow_eq (c : Dev nD) (t : Fin cfg0.N) (p : Fin 4096) :
    (fun k : Fin 16 => (iblk m c 2 t : Vec Ideal S4096x16 .f32) (ix2 p k)) = rowOf (m ((c : Thread nD τ).loc main_arg2) : Hs) ⟨4096 * t.val + p.val, by have := t_lt t; have := p.isLt; omega⟩ :=
  funext fun k => cblk_at m c t p k

/-! ## What a tile writes back -/

/-- Tile `t` writes back rows `4096 t …` of the specification's new hidden array. -/
theorem flushed_hidden (c : Dev nD) (t : Fin cfg0.N) :
    (dats m 0 c).flushed 6 t = ((cfg0.win 6).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 6).cut (grid0.coords t) ((dats m 0 c).after 6 t) = _
  rw [after_hidden]
  unfold newHidden
  rw [View.canon_unit_zero hz2]
  simp only [View.ld_unit_zero (S := S4096x128) hz2, View.ld_unit_zero (S := S4096x16) hz2, View.ld_unit_zero (S := S128x64) hz2,
    View.ld_unit_zero (S := S16x64) hz2, View.ld_unit_zero (S := S64) hz1]
  obtain ⟨sf, si, sg, so⟩ := tile_stacked m c t
  funext y
  have hy0 : (y 0).val < 4096 := (y 0).isLt
  have hy1 : (y 1).val < 16 := (y 1).isLt
  have hxy : (cfg0.win 6).xinj (grid0.coords t) y = ix2 (⟨(y 0).val, hy0⟩ : Fin 4096) (⟨(y 1).val, hy1⟩ : Fin 16) :=
    funext fun a => Fin.ext (by match a with | ⟨0, _⟩ => rfl | ⟨1, _⟩ => rfl)
  refine Eq.trans (congrArg (k0_pay3 (iblk m c 0 t) (iblk m c 1 t) (iblk m c 2 t) (iblk m c 3 t) (iblk m c 4 t) (iblk m c 5 t)) hxy) ?_
  rw [View.read_apply]
  refine (hidden_at (iblk m c 0 t) (iblk m c 1 t) (iblk m c 2 t) (iblk m c 3 t) (iblk m c 4 t) (iblk m c 5 t) _ _ _ _ _ _ _ _ sf si sg so ⟨(y 0).val, hy0⟩ ⟨(y 1).val, hy1⟩).trans ?_
  rw [xrow_eq, hrow_eq, crow_eq]
  refine (hiddenArr_at _ _ _ _ _ _ _ _ _ _ _ _ ⟨4096 * t.val + (y 0).val, by have := t_lt t; omega⟩ ⟨(y 1).val, hy1⟩ ?_ ?_).symm
  · show win0_6.index t (0 : Fin 2) * 4096 + 1 * (y 0).val = 4096 * t.val + (y 0).val
    rw [(idx_facts t).2.2.2.2.2.2.2.2.2.2.2.1]; omega
  · show win0_6.index t (1 : Fin 2) * 16 + 1 * (y 1).val = (y 1).val
    rw [(idx_facts t).2.2.2.2.2.2.2.2.2.2.2.2.1]; omega

/-- Tile `t` writes back rows `4096 t …` of the specification's new cell array. -/
theorem flushed_cell (c : Dev nD) (t : Fin cfg0.N) :
    (dats m 0 c).flushed 7 t = ((cfg0.win 7).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 7).cut (grid0.coords t) ((dats m 0 c).after 7 t) = _
  rw [after_cell]
  unfold newCell
  rw [View.canon_unit_zero hz2]
  simp only [View.ld_unit_zero (S := S4096x128) hz2, View.ld_unit_zero (S := S4096x16) hz2, View.ld_unit_zero (S := S128x64) hz2,
    View.ld_unit_zero (S := S16x64) hz2, View.ld_unit_zero (S := S64) hz1]
  obtain ⟨sf, si, sg, so⟩ := tile_stacked m c t
  funext y
  have hy0 : (y 0).val < 4096 := (y 0).isLt
  have hy1 : (y 1).val < 16 := (y 1).isLt
  have hxy : (cfg0.win 7).xinj (grid0.coords t) y = ix2 (⟨(y 0).val, hy0⟩ : Fin 4096) (⟨(y 1).val, hy1⟩ : Fin 16) :=
    funext fun a => Fin.ext (by match a with | ⟨0, _⟩ => rfl | ⟨1, _⟩ => rfl)
  refine Eq.trans (congrArg (k0_pay2 (iblk m c 0 t) (iblk m c 1 t) (iblk m c 2 t) (iblk m c 3 t) (iblk m c 4 t) (iblk m c 5 t)) hxy) ?_
  rw [View.read_apply]
  refine (cell_at (iblk m c 0 t) (iblk m c 1 t) (iblk m c 2 t) (iblk m c 3 t) (iblk m c 4 t) (iblk m c 5 t) _ _ _ _ _ _ sf si sg ⟨(y 0).val, hy0⟩ ⟨(y 1).val, hy1⟩).trans ?_
  rw [xrow_eq, hrow_eq, crow_eq]
  refine (cellArr_at _ _ _ _ _ _ _ _ _ _ ⟨4096 * t.val + (y 0).val, by have := t_lt t; omega⟩ ⟨(y 1).val, hy1⟩ ?_ ?_).symm
  · show win0_7.index t (0 : Fin 2) * 4096 + 1 * (y 0).val = 4096 * t.val + (y 0).val
    rw [(idx_facts t).2.2.2.2.2.2.2.2.2.2.2.2.2.1]; omega
  · show win0_7.index t (1 : Fin 2) * 16 + 1 * (y 1).val = (y 1).val
    rw [(idx_facts t).2.2.2.2.2.2.2.2.2.2.2.2.2.2]; omega

/-! ## The tiles cover the result arrays -/

theorem mem_tile_hidden (t : Fin cfg0.N) (i : S262144x16.Idx) :
    i ∈ ((cfg0.win 6).blk t).view.set ↔ ∀ a : Fin 2, win0_6.index t a * S4096x16.size a ≤ (i a).val ∧ (i a).val < win0_6.index t a * S4096x16.size a + S4096x16.size a := by
  show i ∈ ((View.whole main_v21_0).slice (win0_6.rect t)).set ↔ _
  rw [View.set_slice_whole, Rect.mem_set_unit]
  exact Iff.rfl

/-- Row `r` lies in tile `r / 4096`: the tiles cover the array. -/
theorem cover_hidden (i : S262144x16.Idx) : ∃ t : Fin cfg0.N, (cfg0.win 6).flush t = true ∧ i ∈ ((cfg0.win 6).blk t).view.set := by
  have hi0 : (i 0).val < 262144 := (i 0).isLt
  have hi1 : (i 1).val < 16 := (i 1).isLt
  have hN : cfg0.N = 64 := N_0
  refine ⟨⟨(i 0).val / 4096, by rw [hN]; omega⟩, flush0_6 _, ?_⟩
  rw [mem_tile_hidden]
  intro a
  match a with
  | ⟨0, _⟩ =>
    show win0_6.index ⟨(i 0).val / 4096, _⟩ (0 : Fin 2) * 4096 ≤ (i 0).val ∧ (i 0).val < win0_6.index ⟨(i 0).val / 4096, _⟩ (0 : Fin 2) * 4096 + 4096
    rw [(idx_facts _).2.2.2.2.2.2.2.2.2.2.2.1]
    show (i 0).val / 4096 * 4096 ≤ (i 0).val ∧ (i 0).val < (i 0).val / 4096 * 4096 + 4096
    omega
  | ⟨1, _⟩ =>
    show win0_6.index ⟨(i 0).val / 4096, _⟩ (1 : Fin 2) * 16 ≤ (i 1).val ∧ (i 1).val < win0_6.index ⟨(i 0).val / 4096, _⟩ (1 : Fin 2) * 16 + 16
    rw [(idx_facts _).2.2.2.2.2.2.2.2.2.2.2.2.1]
    omega

theorem mem_tile_cell (t : Fin cfg0.N) (i : S262144x16.Idx) :
    i ∈ ((cfg0.win 7).blk t).view.set ↔ ∀ a : Fin 2, win0_7.index t a * S4096x16.size a ≤ (i a).val ∧ (i a).val < win0_7.index t a * S4096x16.size a + S4096x16.size a := by
  show i ∈ ((View.whole main_v21_1).slice (win0_7.rect t)).set ↔ _
  rw [View.set_slice_whole, Rect.mem_set_unit]
  exact Iff.rfl

/-- Row `r` lies in tile `r / 4096`: the tiles cover the array. -/
theorem cover_cell (i : S262144x16.Idx) : ∃ t : Fin cfg0.N, (cfg0.win 7).flush t = true ∧ i ∈ ((cfg0.win 7).blk t).view.set := by
  have hi0 : (i 0).val < 262144 := (i 0).isLt
  have hi1 : (i 1).val < 16 := (i 1).isLt
  have hN : cfg0.N = 64 := N_0
  refine ⟨⟨(i 0).val / 4096, by rw [hN]; omega⟩, flush0_7 _, ?_⟩
  rw [mem_tile_cell]
  intro a
  match a with
  | ⟨0, _⟩ =>
    show win0_7.index ⟨(i 0).val / 4096, _⟩ (0 : Fin 2) * 4096 ≤ (i 0).val ∧ (i 0).val < win0_7.index ⟨(i 0).val / 4096, _⟩ (0 : Fin 2) * 4096 + 4096
    rw [(idx_facts _).2.2.2.2.2.2.2.2.2.2.2.2.2.1]
    show (i 0).val / 4096 * 4096 ≤ (i 0).val ∧ (i 0).val < (i 0).val / 4096 * 4096 + 4096
    omega
  | ⟨1, _⟩ =>
    show win0_7.index ⟨(i 0).val / 4096, _⟩ (1 : Fin 2) * 16 ≤ (i 1).val ∧ (i 1).val < win0_7.index ⟨(i 0).val / 4096, _⟩ (1 : Fin 2) * 16 + 16
    rw [(idx_facts _).2.2.2.2.2.2.2.2.2.2.2.2.2.2]
    omega

/-! ## The result arrays after the run -/

theorem final_hidden (c : Dev nD) : (dats m 0 c).arrAt 6 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 6 _ (fun t _ => flushed_hidden m c t) cover_hidden

theorem final_cell (c : Dev nD) : (dats m 0 c).arrAt 7 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 7 _ (fun t _ => flushed_cell m c t) cover_cell

/-- The run, read: the two results are the specification's arrays of the arguments, and the arguments are unchanged. -/
theorem run : θ_run defs (onTc (τ := τ) (main (F := Ideal))) ⟨m, fun _ => 0, ρ⟩ fun r => ∀ c : Dev nD,
      r.2.mem ((c : Thread nD τ).loc main_v21_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v21_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 6).trans (final_hidden m c), ((h c).1 7).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.CellValue

end
-- ==== Proof.RefAsSpec.lean ====
import proofs.«407122_j63848983822341_3_alg».proof.Proof.Gen.ReferenceIdeal.Read
import proofs.«407122_j63848983822341_3_alg».proof.Proof.LstmSpec
import Idealize.ShloMosaic.Lib.Pipeline.Value
import Idealize.ShloMosaic.Lib.ValueIdx
import Idealize.ShloMosaic.PureOps.Ideal.Laws

/-!
# The reference computes the LSTM step of `Cert.LstmSpec`

The reference joins `x` and `h` along the columns, multiplies the joined batch by each gate's transposed weights, adds
the bias, and applies `1 / (1 + e^(-u))` or `tanh`. Read at a batch row and a unit this is `gatePre` of the row, and the
two results are `hiddenArr` and `cellArr`.
-/

noncomputable section

namespace Cert.ReferenceIdeal.AsSpec

open Cert.ReferenceIdeal Cert.ReferenceIdeal.Gen Cert.ReferenceIdeal.Read Cert.LstmSpec
open Idealize.ShloMosaic Idealize.ShloMosaic.TcCoe Idealize.ShloMosaic.ValueIdx

/-- The joined batch at row `r` and column `k` is the joined row: `x`'s entry below column 128, `h`'s from there on. -/
private theorem joined_read (x0 : (⟨S262144x128, .f32⟩ : BufTy).Contents (Elt Ideal)) (x1 : (⟨S262144x16, .f32⟩ : BufTy).Contents (Elt Ideal)) (r : Fin 262144) (k : Fin 144) :
    val_main_v0 (F := Ideal) x0 x1 (ix2 r k) = joined (rowOf x0 r) (rowOf x1 r) k := by
  unfold val_main_v0 joined
  by_cases hk : k.val < 128
  · rw [dif_pos hk]
    exact concatenate_pair_apply_left 1 x0 x1 _ (ix2 r k) rfl (ix2 r ⟨k.val, hk⟩)
      (fun b => match b with
        | ⟨0, _⟩ => rfl
        | ⟨1, _⟩ => rfl)
  · rw [dif_neg hk]
    exact concatenate_pair_apply_right 1 x0 x1 _ (ix2 r k) rfl rfl (ix2 r ⟨k.val - 128, by have := k.isLt; omega⟩)
      (fun b hb => match b, hb with
        | ⟨0, _⟩, _ => rfl
        | ⟨1, _⟩, hb => absurd rfl hb)
      (by show k.val - 128 + 128 = k.val; omega)

/-- A gate's stage chain at an index: the product of the joined batch with the transposed weights, plus the bias spread
    over the rows, is the gate's pre-activation of the row at the unit. -/
private theorem pre_read (x0 : (⟨S262144x128, .f32⟩ : BufTy).Contents (Elt Ideal)) (x1 : (⟨S262144x16, .f32⟩ : BufTy).Contents (Elt Ideal)) (W : (⟨S16x144, .f32⟩ : BufTy).Contents (Elt Ideal)) (b : (⟨S16, .f32⟩ : BufTy).Contents (Elt Ideal)) (i : S262144x16.Idx) :
    (∑ k : Fin 144, (val_main_v0 (F := Ideal) x0 x1) (lidx_main_v2 i k) * (val_main_v1 (F := Ideal) W) (ridx_main_v2 i k))
        + val_main_v4 (F := Ideal) b i
      = gatePre (rowOf x0 ⟨(i 0).val, (i 0).isLt⟩) (rowOf x1 ⟨(i 0).val, (i 0).isLt⟩) W b ⟨(i 1).val, (i 1).isLt⟩ := by
  unfold gatePre
  rw [val_main_v4_apply, val_main_v3_apply]
  have hb : idx_main_v3 (idx_main_v4 i) = ix1 (n := 16) ⟨(i 1).val, (i 1).isLt⟩ :=
    funext fun a => Fin.ext (by match a with | ⟨0, _⟩ => rfl)
  rw [hb]
  congr 1
  refine Finset.sum_congr rfl fun k _ => ?_
  have hl : lidx_main_v2 i k = ix2 (n0 := 262144) (n1 := 144) ⟨(i 0).val, (i 0).isLt⟩ k :=
    funext fun a => Fin.ext (by match a with | ⟨0, _⟩ => rfl | ⟨1, _⟩ => rfl)
  have hr : idx_main_v1 (ridx_main_v2 i k) = ix2 (n0 := 16) (n1 := 144) ⟨(i 1).val, (i 1).isLt⟩ k :=
    funext fun a => Fin.ext (by match a with | ⟨0, _⟩ => rfl | ⟨1, _⟩ => rfl)
  rw [val_main_v1_apply, hl, hr, joined_read]

/-- The forget gate's pre-activation. -/
private theorem pre_f (x0 : (⟨S262144x128, .f32⟩ : BufTy).Contents (Elt Ideal)) (x1 : (⟨S262144x16, .f32⟩ : BufTy).Contents (Elt Ideal)) (x3 : (⟨S16x144, .f32⟩ : BufTy).Contents (Elt Ideal)) (x4 : (⟨S16, .f32⟩ : BufTy).Contents (Elt Ideal)) (i : S262144x16.Idx) :
    val_main_v5 (F := Ideal) x0 x1 x3 x4 i
      = gatePre (rowOf x0 ⟨(i 0).val, (i 0).isLt⟩) (rowOf x1 ⟨(i 0).val, (i 0).isLt⟩) x3 x4 ⟨(i 1).val, (i 1).isLt⟩ := by
  rw [val_main_v5_apply, val_main_v2_apply]
  exact pre_read x0 x1 x3 x4 i

/-- The input gate's pre-activation. -/
private theorem pre_i (x0 : (⟨S262144x128, .f32⟩ : BufTy).Contents (Elt Ideal)) (x1 : (⟨S262144x16, .f32⟩ : BufTy).Contents (Elt Ideal)) (x5 : (⟨S16x144, .f32⟩ : BufTy).Contents (Elt Ideal)) (x6 : (⟨S16, .f32⟩ : BufTy).Contents (Elt Ideal)) (i : S262144x16.Idx) :
    val_main_v16 (F := Ideal) x0 x1 x5 x6 i
      = gatePre (rowOf x0 ⟨(i 0).val, (i 0).isLt⟩) (rowOf x1 ⟨(i 0).val, (i 0).isLt⟩) x5 x6 ⟨(i 1).val, (i 1).isLt⟩ := by
  rw [val_main_v16_apply, val_main_v13_apply]
  exact pre_read x0 x1 x5 x6 i

/-- The candidate's pre-activation. -/
private theorem pre_g (x0 : (⟨S262144x128, .f32⟩ : BufTy).Contents (Elt Ideal)) (x1 : (⟨S262144x16, .f32⟩ : BufTy).Contents (Elt Ideal)) (x7 : (⟨S16x144, .f32⟩ : BufTy).Contents (Elt Ideal)) (x8 : (⟨S16, .f32⟩ : BufTy).Contents (Elt Ideal)) (i : S262144x16.Idx) :
    val_main_v27 (F := Ideal) x0 x1 x7 x8 i
      = gatePre (rowOf x0 ⟨(i 0).val, (i 0).isLt⟩) (rowOf x1 ⟨(i 0).val, (i 0).isLt⟩) x7 x8 ⟨(i 1).val, (i 1).isLt⟩ := by
  rw [val_main_v27_apply, val_main_v24_apply]
  exact pre_read x0 x1 x7 x8 i

/-- The output gate's pre-activation. -/
private theorem pre_o (x0 : (⟨S262144x128, .f32⟩ : BufTy).Contents (Elt Ideal)) (x1 : (⟨S262144x16, .f32⟩ : BufTy).Contents (Elt Ideal)) (x9 : (⟨S16x144, .f32⟩ : BufTy).Contents (Elt Ideal)) (x10 : (⟨S16, .f32⟩ : BufTy).Contents (Elt Ideal)) (i : S262144x16.Idx) :
    val_main_v36 (F := Ideal) x0 x1 x9 x10 i
      = gatePre (rowOf x0 ⟨(i 0).val, (i 0).isLt⟩) (rowOf x1 ⟨(i 0).val, (i 0).isLt⟩) x9 x10 ⟨(i 1).val, (i 1).isLt⟩ := by
  rw [val_main_v36_apply, val_main_v33_apply]
  exact pre_read x0 x1 x9 x10 i

/-- The forget gate: `1 / (1 + e^(-u))` of its pre-activation. -/
private theorem sig_f (x0 : (⟨S262144x128, .f32⟩ : BufTy).Contents (Elt Ideal)) (x1 : (⟨S262144x16, .f32⟩ : BufTy).Contents (Elt Ideal)) (x3 : (⟨S16x144, .f32⟩ : BufTy).Contents (Elt Ideal)) (x4 : (⟨S16, .f32⟩ : BufTy).Contents (Elt Ideal)) (i : S262144x16.Idx) :
    val_main_v11 (F := Ideal) x0 x1 x3 x4 i
      = Ideal.logistic (gatePre (rowOf x0 ⟨(i 0).val, (i 0).isLt⟩) (rowOf x1 ⟨(i 0).val, (i 0).isLt⟩) x3 x4 ⟨(i 1).val, (i 1).isLt⟩) := by
  rw [val_main_v11_apply, val_main_v10_apply, val_main_cst_0_apply, val_main_v9_apply, val_main_v8_apply,
    val_main_cst_apply, val_main_v7_apply, val_main_v6_apply, pre_f]
  simp only [Ideal.hostDivf_def, Ideal.addf_def, Ideal.hostUnary_exp_def, Ideal.hostNegf_def, Ideal.negf_def, Ideal.ofBits_def,
    ofBits_one]
  rfl

/-- The input gate: `1 / (1 + e^(-u))` of its pre-activation. -/
private theorem sig_i (x0 : (⟨S262144x128, .f32⟩ : BufTy).Contents (Elt Ideal)) (x1 : (⟨S262144x16, .f32⟩ : BufTy).Contents (Elt Ideal)) (x5 : (⟨S16x144, .f32⟩ : BufTy).Contents (Elt Ideal)) (x6 : (⟨S16, .f32⟩ : BufTy).Contents (Elt Ideal)) (i : S262144x16.Idx) :
    val_main_v22 (F := Ideal) x0 x1 x5 x6 i
      = Ideal.logistic (gatePre (rowOf x0 ⟨(i 0).val, (i 0).isLt⟩) (rowOf x1 ⟨(i 0).val, (i 0).isLt⟩) x5 x6 ⟨(i 1).val, (i 1).isLt⟩) := by
  rw [val_main_v22_apply, val_main_v21_apply, val_main_cst_2_apply, val_main_v20_apply, val_main_v19_apply,
    val_main_cst_1_apply, val_main_v18_apply, val_main_v17_apply, pre_i]
  simp only [Ideal.hostDivf_def, Ideal.addf_def, Ideal.hostUnary_exp_def, Ideal.hostNegf_def, Ideal.negf_def, Ideal.ofBits_def,
    ofBits_one]
  rfl

/-- The output gate: `1 / (1 + e^(-u))` of its pre-activation. -/
private theorem sig_o (x0 : (⟨S262144x128, .f32⟩ : BufTy).Contents (Elt Ideal)) (x1 : (⟨S262144x16, .f32⟩ : BufTy).Contents (Elt Ideal)) (x9 : (⟨S16x144, .f32⟩ : BufTy).Contents (Elt Ideal)) (x10 : (⟨S16, .f32⟩ : BufTy).Contents (Elt Ideal)) (i : S262144x16.Idx) :
    val_main_v42 (F := Ideal) x0 x1 x9 x10 i
      = Ideal.logistic (gatePre (rowOf x0 ⟨(i 0).val, (i 0).isLt⟩) (rowOf x1 ⟨(i 0).val, (i 0).isLt⟩) x9 x10 ⟨(i 1).val, (i 1).isLt⟩) := by
  rw [val_main_v42_apply, val_main_v41_apply, val_main_cst_4_apply, val_main_v40_apply, val_main_v39_apply,
    val_main_cst_3_apply, val_main_v38_apply, val_main_v37_apply, pre_o]
  simp only [Ideal.hostDivf_def, Ideal.addf_def, Ideal.hostUnary_exp_def, Ideal.hostNegf_def, Ideal.negf_def, Ideal.ofBits_def,
    ofBits_one]
  rfl

/-- The reference's new cell state is the specification's. -/
theorem ref_cell (x0 : (⟨S262144x128, .f32⟩ : BufTy).Contents (Elt Ideal)) (x1 x2 : (⟨S262144x16, .f32⟩ : BufTy).Contents (Elt Ideal))
    (x3 : (⟨S16x144, .f32⟩ : BufTy).Contents (Elt Ideal)) (x4 : (⟨S16, .f32⟩ : BufTy).Contents (Elt Ideal))
    (x5 : (⟨S16x144, .f32⟩ : BufTy).Contents (Elt Ideal)) (x6 : (⟨S16, .f32⟩ : BufTy).Contents (Elt Ideal))
    (x7 : (⟨S16x144, .f32⟩ : BufTy).Contents (Elt Ideal)) (x8 : (⟨S16, .f32⟩ : BufTy).Contents (Elt Ideal)) :
    val_main_v31 (F := Ideal) x0 x1 x2 x3 x4 x5 x6 x7 x8 = cellArr x0 x1 x2 x3 x4 x5 x6 x7 x8 := by
  funext i
  rw [val_main_v31_apply, val_main_v29_apply, val_main_v30_apply, val_main_v28_apply, sig_f, sig_i, pre_g]
  simp only [Ideal.addf_def, Ideal.mulf_def, Ideal.hostUnary_tanh_def]
  have hc : x2 i = rowOf x2 ⟨(i 0).val, (i 0).isLt⟩ ⟨(i 1).val, (i 1).isLt⟩ :=
    congrArg x2 (funext fun a => Fin.ext (by match a with | ⟨0, _⟩ => rfl | ⟨1, _⟩ => rfl))
  rw [hc]
  rfl

/-- The reference's new hidden state is the specification's. -/
theorem ref_hidden (x0 : (⟨S262144x128, .f32⟩ : BufTy).Contents (Elt Ideal)) (x1 x2 : (⟨S262144x16, .f32⟩ : BufTy).Contents (Elt Ideal))
    (x3 : (⟨S16x144, .f32⟩ : BufTy).Contents (Elt Ideal)) (x4 : (⟨S16, .f32⟩ : BufTy).Contents (Elt Ideal))
    (x5 : (⟨S16x144, .f32⟩ : BufTy).Contents (Elt Ideal)) (x6 : (⟨S16, .f32⟩ : BufTy).Contents (Elt Ideal))
    (x7 : (⟨S16x144, .f32⟩ : BufTy).Contents (Elt Ideal)) (x8 : (⟨S16, .f32⟩ : BufTy).Contents (Elt Ideal))
    (x9 : (⟨S16x144, .f32⟩ : BufTy).Contents (Elt Ideal)) (x10 : (⟨S16, .f32⟩ : BufTy).Contents (Elt Ideal)) :
    val_main_v44 (F := Ideal) x0 x1 x2 x3 x4 x5 x6 x7 x8 x9 x10 = hiddenArr x0 x1 x2 x3 x4 x5 x6 x7 x8 x9 x10 := by
  funext i
  rw [val_main_v44_apply, val_main_v43_apply, sig_o, ref_cell]
  simp only [Ideal.mulf_def, Ideal.hostUnary_tanh_def]
  rfl

end Cert.ReferenceIdeal.AsSpec

end
-- ==== Proof.lean ====
/-
  An LSTM cell step over a batch of 262144 rows: the kernel stacks the four gates' weights into two tables and one bias
  row, and computes every 4096-row tile with two products and one pass of gate arithmetic; the reference joins `[x, h]`
  and multiplies by each gate's weights in turn. Over the extended reals both are the step of `Cert.LstmSpec`: the sum over
  the joined row splits into the sum over `x`'s columns and the sum over `h`'s (sums commute and associate; no finiteness is
  used), a change of float format is the identity, and `1 / (1 + e^(-u))` is one function however it is spelt.
  The three programs run to the end leaving their arguments unchanged; the kernel's idealization rewrote nothing.
-/
import proofs.«407122_j63848983822341_3_alg».proof.Defs
import proofs.«407122_j63848983822341_3_alg».proof.Proof.Gen.Kernel
import proofs.«407122_j63848983822341_3_alg».proof.Proof.Gen.KernelIdeal
import proofs.«407122_j63848983822341_3_alg».proof.Proof.Gen.ReferenceIdeal
import proofs.«407122_j63848983822341_3_alg».proof.Proof.Gen.Pre_finite_inputs
import proofs.«407122_j63848983822341_3_alg».proof.Proof.Gen.ReferenceIdeal.Run
import proofs.«407122_j63848983822341_3_alg».proof.Proof.Gen.ReferenceIdeal.Read
import proofs.«407122_j63848983822341_3_alg».proof.Proof.CellRunWord
import proofs.«407122_j63848983822341_3_alg».proof.Proof.CellValueIdeal
import proofs.«407122_j63848983822341_3_alg».proof.Proof.RefAsSpec
import Idealize.ShloMosaic.Adequacy
import Idealize.ShloMosaic.Init

noncomputable section

namespace Cert.Proof

open Idealize.ShloMosaic Idealize.SL.Sem Cert.LstmSpec

/-- The word-level kernel runs to the end and leaves its arguments unchanged. -/
theorem frame_word : Cert.frame_Kernel := fun m ρ _ => Cert.Kernel.CellFrame.frame m ρ

/-- So does the kernel read over the extended reals. -/
theorem frame_ideal : Cert.frame_KernelIdeal := fun m ρ _ => Cert.KernelIdeal.CellFrame.frame m ρ

/-- The reference is host operations only: its run, with the results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- Both programs end with the specification's new hidden and cell arrays of the arguments, on which they agree. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.Read.val_main_v44_eq, Cert.ReferenceIdeal.AsSpec.ref_hidden, a0, a1, a2, a3, a4, a5, a6, a7, a8, a9, a10]
  · rw [Cert.ReferenceIdeal.Read.val_main_v31_eq, Cert.ReferenceIdeal.AsSpec.ref_cell, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_word, frame_ideal, frame_ref, trivial, algebraic⟩

end Cert.Proof

end
